-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x512 : Shape := ⟨2, ![64, 512]⟩
abbrev S1024x9 : Shape := ⟨2, ![1024, 9]⟩
abbrev S9 : Shape := ⟨1, ![9]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S1024x9 : S_.BroadcastsInDim S1024x9 (![] : Fin 0 → Fin S1024x9.rank)
  reducesTo_S1024x9_S_d0_1 : S1024x9.ReducesTo [0, 1] S_
  bcast_S_S9 : S_.BroadcastsInDim S9 (![] : Fin 0 → Fin S9.rank)
  reducesTo_S9_S_d0 : S9.ReducesTo [0] S_

variable [Facts]

def fn {F : FTy → Type} [FloatOps F] (main_arg0 : FVec F S64x512x1024 .f32) (main_arg1 : IVec S64x512 32) (main_arg2 : FVec F S1024x9 .f32) (main_arg3 : FVec F S9 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S1024x9 .f32 := Host.absf main_arg2
  let main_cst_0 : FVec F S_ .f32 := constant S_ .f32 0x7F800000#32
  let main_v5 : FVec F S1024x9 .f32 := broadcastInDim S1024x9 ![] bcast_S_S1024x9 main_cst_0
  let main_v6 : IVec S1024x9 1 := cmpf .olt main_v4 main_v5
  let main_c_1 : IVec S_ 1 := constantI S_ 1 1#1
  let main_v7 : IVec S_ 1 := (fun x v => Host.reduce IntOp.andi x v reducesTo_S1024x9_S_d0_1 h_S_) main_v6 main_c_1
  let main_v8 : IVec S_ 1 := andi main_v3 main_v7
  let main_v9 : FVec F S9 .f32 := Host.absf main_arg3
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  main_v13
-- ==== Kernel.lean ====
abbrev S64x512x1024 : Shape := ⟨3, ![64, 512, 1024]⟩
abbrev S64x512 : Shape := ⟨2, ![64, 512]⟩
abbrev S1024x9 : Shape := ⟨2, ![1024, 9]⟩
abbrev S9 : Shape := ⟨1, ![9]⟩
abbrev S512 : Shape := ⟨1, ![512]⟩
abbrev S1x512 : Shape := ⟨2, ![1, 512]⟩
abbrev S_ : Shape := ⟨0, ![]⟩
abbrev S64 : Shape := ⟨1, ![64]⟩
abbrev S64x1 : Shape := ⟨2, ![64, 1]⟩
abbrev S64x1x512 : Shape := ⟨3, ![64, 1, 512]⟩
abbrev S64x9x512 : Shape := ⟨3, ![64, 9, 512]⟩
abbrev S4x1x512 : Shape := ⟨3, ![4, 1, 512]⟩
abbrev S4x512x1024 : Shape := ⟨3, ![4, 512, 1024]⟩
abbrev S4x9x512 : Shape := ⟨3, ![4, 9, 512]⟩
abbrev S1x9 : Shape := ⟨2, ![1, 9]⟩
abbrev S512x9 : Shape := ⟨2, ![512, 9]⟩
abbrev S512x512 : Shape := ⟨2, ![512, 512]⟩
abbrev S1x1x512 : Shape := ⟨3, ![1, 1, 512]⟩
abbrev S1x512x1024 : Shape := ⟨3, ![1, 512, 1024]⟩
abbrev S512x1024 : Shape := ⟨2, ![512, 1024]⟩
abbrev S512x1 : Shape := ⟨2, ![512, 1]⟩
abbrev S9x512 : Shape := ⟨2, ![9, 512]⟩
abbrev S1x9x512 : Shape := ⟨3, ![1, 9, 512]⟩
abbrev S64x512x9 : Shape := ⟨3, ![64, 512, 9]⟩

abbrev nBuf : Space → Nat
  | .hbm => 29
  | .vmem => 8
  | .smem => 0
  | _ => 0

abbrev bufTy : (tb : Table) → Fin (tcTables nBuf tb) → BufTy
  | .hbm, ⟨0, _⟩ => ⟨S64x512x1024, .f32⟩
  | .hbm, ⟨1, _⟩ => ⟨S64x512, .i32⟩
  | .hbm, ⟨2, _⟩ => ⟨S1024x9, .f32⟩
  | .hbm, ⟨3, _⟩ => ⟨S9, .f32⟩
  | .hbm, ⟨4, _⟩ => ⟨S512, .i32⟩
  | .hbm, ⟨5, _⟩ => ⟨S1x512, .i32⟩
  | .hbm, ⟨6, _⟩ => ⟨S_, .i32⟩
  | .hbm, ⟨7, _⟩ => ⟨S64x512, .i32⟩
  | .hbm, ⟨8, _⟩ => ⟨S64x512, .i32⟩
  | .hbm, ⟨9, _⟩ => ⟨S_, .i32⟩
  | .hbm, ⟨10, _⟩ => ⟨S64x512, .i32⟩
  | .hbm, ⟨11, _⟩ => ⟨S64x512, .i32⟩
  | .hbm, ⟨12, _⟩ => ⟨S64x512, .i32⟩
  | .hbm, ⟨13, _⟩ => ⟨S64x512, .i32⟩
  | .hbm, ⟨14, _⟩ => ⟨S64x512, .i32⟩
  | .hbm, ⟨15, _⟩ => ⟨S64x512, .i32⟩
  | .hbm, ⟨16, _⟩ => ⟨S64x512, .i32⟩
  | .hbm, ⟨17, _⟩ => ⟨S_, .i32⟩
  | .hbm, ⟨18, _⟩ => ⟨S64, .i32⟩
  | .hbm, ⟨19, _⟩ => ⟨S64x1, .i32⟩
  | .hbm, ⟨20, _⟩ => ⟨S64x512, .i32⟩
  | .hbm, ⟨21, _⟩ => ⟨S64x512, .i32⟩
  | .hbm, ⟨22, _⟩ => ⟨S64x512, .i1⟩
  | .hbm, ⟨23, _⟩ => ⟨S_, .i32⟩
  | .hbm, ⟨24, _⟩ => ⟨S64x512, .i32⟩
  | .hbm, ⟨25, _⟩ => ⟨S64x512, .i32⟩
  | .hbm, ⟨26, _⟩ => ⟨S64x1x512, .i32⟩
  | .hbm, ⟨27, _⟩ => ⟨S64x9x512, .f32⟩
  | .hbm, ⟨28, _⟩ => ⟨S64x512x9, .f32⟩
  | .local _ .vmem, ⟨0, _⟩ => ⟨S4x1x512, .i32⟩
  | .local _ .vmem, ⟨1, _⟩ => ⟨S4x1x512, .i32⟩
  | .local _ .vmem, ⟨2, _⟩ => ⟨S4x512x1024, .f32⟩
  | .local _ .vmem, ⟨3, _⟩ => ⟨S4x512x1024, .f32⟩
  | .local _ .vmem, ⟨4, _⟩ => ⟨S1024x9, .f32⟩
  | .local _ .vmem, ⟨5, _⟩ => ⟨S9, .f32⟩
  | .local _ .vmem, ⟨6, _⟩ => ⟨S4x9x512, .f32⟩
  | .local _ .vmem, ⟨7, _⟩ => ⟨S4x9x512, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1_0 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x9x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S512_S1x512_1 : S512.BroadcastsInDim S1x512 (![1] : Fin 1 → Fin S1x512.rank)
  bcast_S_S64x512 : S_.BroadcastsInDim S64x512 (![] : Fin 0 → Fin S64x512.rank)
  bcast_S1x512_S64x512_0_1 : S1x512.BroadcastsInDim S64x512 (![0, 1] : Fin 2 → Fin S64x512.rank)
  reducesTo_S64x512_S64_d1 : S64x512.ReducesTo [1] S64
  h_S_ : 0 < S_.numel
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  shapeCasts_S64x512_S64x1x512 : S64x512.ShapeCasts S64x1x512
  inb_S1024x9_S1024x9_0_0 : ∀ a, (![0, 0] : Fin 2 → Nat) a + S1024x9.size a ≤ S1024x9.size a
  h_S1024x9 : 0 < S1024x9.numel
  bitsLt_bf16_f32 : FTy.bits .bf16 < FTy.bits .f32
  inb_S9_S9_0 : ∀ a, (![0] : Fin 1 → Nat) a + S9.size a ≤ S9.size a
  h_S9 : 0 < S9.numel
  shapeCasts_S9_S1x9 : S9.ShapeCasts S1x9
  broadcasts_S1x9_S512x9 : S1x9.Broadcasts S512x9
  iota_S512x512_d1_w32 : S512x512.Iotas .tc 32 [1]
  inb_S4x1x512_S1x1x512_0_0_0 : ∀ a, (![0, 0, 0] : Fin 3 → Nat) a + S1x1x512.size a ≤ S4x1x512.size a
  h_S1x1x512 : 0 < S1x1x512.numel
  shapeCasts_S1x1x512_S512 : S1x1x512.ShapeCasts S512
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  shapeCasts_S512_S512x1 : S512.ShapeCasts S512x1
  shapeCasts_S512x1_S512x1 : S512x1.ShapeCasts S512x1
  broadcasts_S512x1_S512x512 : S512x1.Broadcasts S512x512
  natLt_1_32 : 1 < 32
  reduces_S512x9_S512 : S512x9.Reduces [1] S512
  broadcasts_S512x1_S512x9 : S512x1.Broadcasts S512x9
  transposes_S512x9_p1_0_S9x512 : S512x9.Transposes [1, 0] S9x512
  inb_S4x9x512_S1x9x512_0_0_0 : ∀ a, (![0, 0, 0] : Fin 3 → Nat) a + S1x9x512.size a ≤ S4x9x512.size a
  h_S1x9x512 : 0 < S1x9x512.numel
  shapeCasts_S1x9x512_S9x512 : S1x9x512.ShapeCasts S9x512
  shapeCasts_S9x512_S1x9x512 : S9x512.ShapeCasts S1x9x512
  inb_S4x1x512_S1x1x512_1_0_0 : ∀ a, (![1, 0, 0] : Fin 3 → Nat) a + S1x1x512.size a ≤ S4x1x512.size a
  inb_S4x512x1024_S1x512x1024_1_0_0 : ∀ a, (![1, 0, 0] : Fin 3 → Nat) a + S1x512x1024.size a ≤ S4x512x1024.size a
  inb_S4x9x512_S1x9x512_1_0_0 : ∀ a, (![1, 0, 0] : Fin 3 → Nat) a + S1x9x512.size a ≤ S4x9x512.size a
  inb_S4x1x512_S1x1x512_2_0_0 : ∀ a, (![2, 0, 0] : Fin 3 → Nat) a + S1x1x512.size a ≤ S4x1x512.size a
  inb_S4x512x1024_S1x512x1024_2_0_0 : ∀ a, (![2, 0, 0] : Fin 3 → Nat) a + S1x512x1024.size a ≤ S4x512x1024.size a
  inb_S4x9x512_S1x9x512_2_0_0 : ∀ a, (![2, 0, 0] : Fin 3 → Nat) a + S1x9x512.size a ≤ S4x9x512.size a
  inb_S4x1x512_S1x1x512_3_0_0 : ∀ a, (![3, 0, 0] : Fin 3 → Nat) a + S1x1x512.size a ≤ S4x1x512.size a
  inb_S4x512x1024_S1x512x1024_3_0_0 : ∀ a, (![3, 0, 0] : Fin 3 → Nat) a + S1x512x1024.size a ≤ S4x512x1024.size a
  inb_S4x9x512_S1x9x512_3_0_0 : ∀ a, (![3, 0, 0] : Fin 3 → Nat) a + S1x9x512.size a ≤ S4x9x512.size a
  transposes_S64x9x512_S64x512x9_0_2_1 : S64x9x512.Transposes [0, 2, 1] S64x512x9
  dot_S512x1024_S1024x9_S512x9_1_0_0_1_n_n_wf : DotDims.WF S512x1024 S1024x9 S512x9 [1] [0] [0] [1] [] []
  dot_S512x512_S512x9_S512x9_1_0_0_1_n_n_wf : DotDims.WF S512x512 S512x9 S512x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x512.size a ≤ S64x1x512.size a
  hwx0_0 : ∀ i : grid0.Coords, EltTy.bits .i32 = 32 ∨ (Rect.block (s := S64x1x512) S4x1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1024.size a ≤ S64x512x1024.size a
  hwx0_1 : ∀ i : grid0.Coords, EltTy.bits .f32 = 32 ∨ (Rect.block (s := S64x512x1024) S4x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x9.size a ≤ S1024x9.size a
  hwx0_2 : ∀ i : grid0.Coords, EltTy.bits .f32 = 32 ∨ (Rect.block (s := S1024x9) S1024x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9.size a ≤ S9.size a
  hwx0_3 : ∀ i : grid0.Coords, EltTy.bits .f32 = 32 ∨ (Rect.block (s := S9) S9.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x9x512.size a ≤ S64x9x512.size a
  hwx0_4 : ∀ i : grid0.Coords, EltTy.bits .f32 = 32 ∨ (Rect.block (s := S64x9x512) S4x9x512.size (cc0_transform_4 i) (hinb0_4 i)).WholeWords (EltTy.packing .f32)

variable [Facts₀]

def comparator_i32_i32_d1 : BitVec 32 × BitVec 32 → BitVec 32 × BitVec 32 → BitVec 1 :=
  fun l r =>
    let v2 := IntOp.cmpi .slt l.1 r.1
    v2
def dot_S512x1024_S1024x9_S512x9_1_0_0_1_n_n : DotDims S512x1024 S1024x9 S512x9 where
  lhsContracting := [1]
  rhsContracting := [0]
  lhsNonContracting := [0]
  rhsNonContracting := [1]
  lhsBatch := []
  rhsBatch := []
  wf := dot_S512x1024_S1024x9_S512x9_1_0_0_1_n_n_wf
def dot_S512x512_S512x9_S512x9_1_0_0_1_n_n : DotDims S512x512 S512x9 S512x9 where
  lhsContracting := [1]
  rhsContracting := [0]
  lhsNonContracting := [0]
  rhsNonContracting := [1]
  lhsBatch := []
  rhsBatch := []
  wf := dot_S512x512_S512x9_S512x9_1_0_0_1_n_n_wf

abbrev win0_0 : Pipeline.Window sig grid0 :=
  Pipeline.Window.ofSpec (Memref.whole main_v15) S4x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S4x9x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x512 : Shape := ⟨2, ![64, 512]⟩
abbrev S1024x9 : Shape := ⟨2, ![1024, 9]⟩
abbrev S9 : Shape := ⟨1, ![9]⟩
abbrev S512 : Shape := ⟨1, ![512]⟩
abbrev S1x512 : Shape := ⟨2, ![1, 512]⟩
abbrev S_ : Shape := ⟨0, ![]⟩
abbrev S64x512x1 : Shape := ⟨3, ![64, 512, 1]⟩
abbrev S1 : Shape := ⟨1, ![1]⟩
abbrev S1x1x1 : Shape := ⟨3, ![1, 1, 1]⟩
abbrev S64 : Shape := ⟨1, ![64]⟩
abbrev S64x1 : Shape := ⟨2, ![64, 1]⟩
abbrev S64x512x9 : Shape := ⟨3, ![64, 512, 9]⟩
abbrev S1x1x9 : Shape := ⟨3, ![1, 1, 9]⟩

abbrev nBuf : Space → Nat
  | .hbm => 69
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512, .i32⟩
  | .hbm, ⟨2, _⟩ => ⟨S1024x9, .f32⟩
  | .hbm, ⟨3, _⟩ => ⟨S9, .f32⟩
  | .hbm, ⟨4, _⟩ => ⟨S512, .i32⟩
  | .hbm, ⟨5, _⟩ => ⟨S1x512, .i32⟩
  | .hbm, ⟨6, _⟩ => ⟨S_, .i32⟩
  | .hbm, ⟨7, _⟩ => ⟨S64x512, .i32⟩
  | .hbm, ⟨8, _⟩ => ⟨S64x512, .i32⟩
  | .hbm, ⟨9, _⟩ => ⟨S_, .i32⟩
  | .hbm, ⟨10, _⟩ => ⟨S64x512, .i32⟩
  | .hbm, ⟨11, _⟩ => ⟨S64x512, .i32⟩
  | .hbm, ⟨12, _⟩ => ⟨S64x512, .i32⟩
  | .hbm, ⟨13, _⟩ => ⟨S64x512, .i32⟩
  | .hbm, ⟨14, _⟩ => ⟨S64x512, .i32⟩
  | .hbm, ⟨15, _⟩ => ⟨S64x512, .i32⟩
  | .hbm, ⟨16, _⟩ => ⟨S64x512, .i32⟩
  | .hbm, ⟨17, _⟩ => ⟨S64x512x1, .i32⟩
  | .hbm, ⟨18, _⟩ => ⟨S_, .i32⟩
  | .hbm, ⟨19, _⟩ => ⟨S64x512x1, .i32⟩
  | .hbm, ⟨20, _⟩ => ⟨S64x512x1, .i1⟩
  | .hbm, ⟨21, _⟩ => ⟨S_, .i32⟩
  | .hbm, ⟨22, _⟩ => ⟨S64x512x1, .i32⟩
  | .hbm, ⟨23, _⟩ => ⟨S64x512x1, .i32⟩
  | .hbm, ⟨24, _⟩ => ⟨S64x512x1, .i32⟩
  | .hbm, ⟨25, _⟩ => ⟨S1, .i32⟩
  | .hbm, ⟨26, _⟩ => ⟨S_, .i32⟩
  | .hbm, ⟨27, _⟩ => ⟨S64x512x1, .i32⟩
  | .hbm, ⟨28, _⟩ => ⟨S64x512x1, .i1⟩
  | .hbm, ⟨29, _⟩ => ⟨S1x1x1, .i32⟩
  | .hbm, ⟨30, _⟩ => ⟨S64x512x1, .i32⟩
  | .hbm, ⟨31, _⟩ => ⟨S64x512x1, .i1⟩
  | .hbm, ⟨32, _⟩ => ⟨S64x512x1, .i1⟩
  | .hbm, ⟨33, _⟩ => ⟨S_, .i1⟩
  | .hbm, ⟨34, _⟩ => ⟨S64x512, .i1⟩
  | .hbm, ⟨35, _⟩ => ⟨S64x512x1024, .f32⟩
  | .hbm, ⟨36, _⟩ => ⟨S64x512x1024, .i1⟩
  | .hbm, ⟨37, _⟩ => ⟨S_, .f32⟩
  | .hbm, ⟨38, _⟩ => ⟨S64x512x1024, .f32⟩
  | .hbm, ⟨39, _⟩ => ⟨S64x512x1024, .f32⟩
  | .hbm, ⟨40, _⟩ => ⟨S_, .i32⟩
  | .hbm, ⟨41, _⟩ => ⟨S64, .i32⟩
  | .hbm, ⟨42, _⟩ => ⟨S64x1, .i32⟩
  | .hbm, ⟨43, _⟩ => ⟨S64x512, .i32⟩
  | .hbm, ⟨44, _⟩ => ⟨S64x512, .i32⟩
  | .hbm, ⟨45, _⟩ => ⟨S64x512, .i1⟩
  | .hbm, ⟨46, _⟩ => ⟨S64x512x1, .i1⟩
  | .hbm, ⟨47, _⟩ => ⟨S_, .f32⟩
  | .hbm, ⟨48, _⟩ => ⟨S64x512x1024, .i1⟩
  | .hbm, ⟨49, _⟩ => ⟨S64x512x1024, .f32⟩
  | .hbm, ⟨50, _⟩ => ⟨S64x512x1024, .f32⟩
  | .hbm, ⟨51, _⟩ => ⟨S64x512x9, .f32⟩
  | .hbm, ⟨52, _⟩ => ⟨S1x1x9, .f32⟩
  | .hbm, ⟨53, _⟩ => ⟨S64x512x9, .f32⟩
  | .hbm, ⟨54, _⟩ => ⟨S64x512x9, .f32⟩
  | .hbm, ⟨55, _⟩ => ⟨S_, .f32⟩
  | .hbm, ⟨56, _⟩ => ⟨S64x512, .f32⟩
  | .hbm, ⟨57, _⟩ => ⟨S_, .f32⟩
  | .hbm, ⟨58, _⟩ => ⟨S64x512, .f32⟩
  | .hbm, ⟨59, _⟩ => ⟨S64x512, .f32⟩
  | .hbm, ⟨60, _⟩ => ⟨S64x512x1, .f32⟩
  | .hbm, ⟨61, _⟩ => ⟨S64x512x9, .f32⟩
  | .hbm, ⟨62, _⟩ => ⟨S64x512x9, .f32⟩
  | .hbm, ⟨63, _⟩ => ⟨S64x512x9, .f32⟩
  | .hbm, ⟨64, _⟩ => ⟨S_, .f32⟩
  | .hbm, ⟨65, _⟩ => ⟨S64x512, .f32⟩
  | .hbm, ⟨66, _⟩ => ⟨S64x512x1, .f32⟩
  | .hbm, ⟨67, _⟩ => ⟨S64x512x9, .f32⟩
  | .hbm, ⟨68, _⟩ => ⟨S64x512x9, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1_0 : Ref sig .tc := ⟨.hbm, 15, rfl⟩
abbrev main_v8 : Ref sig .tc := ⟨.hbm, 16, rfl⟩
abbrev main_v9 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_1 : Ref sig .tc := ⟨.hbm, 25, rfl⟩
abbrev main_call1_c_2 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_c_3 : Ref sig .tc := ⟨.hbm, 33, rfl⟩
abbrev main_call1_v11 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v10 : Ref sig .tc := ⟨.hbm, 39, rfl⟩
abbrev main_c_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_2 : Ref sig .tc := ⟨.hbm, 55, rfl⟩
abbrev main_v22 : Ref sig .tc := ⟨.hbm, 56, rfl⟩
abbrev main_cst_3 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S_S64x512 : S_.BroadcastsInDim S64x512 (![] : Fin 0 → Fin S64x512.rank)
  bcast_S1x512_S64x512_0_1 : S1x512.BroadcastsInDim S64x512 (![0, 1] : Fin 2 → Fin S64x512.rank)
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  h_S_ : 0 < S_.numel
  bcast_S64x512_S64x512x1024_0_1 : S64x512.BroadcastsInDim S64x512x1024 (![0, 1] : Fin 2 → Fin S64x512x1024.rank)
  bcast_S_S64x512x1024 : S_.BroadcastsInDim S64x512x1024 (![] : Fin 0 → Fin S64x512x1024.rank)
  reducesTo_S64x512_S64_d1 : S64x512.ReducesTo [1] S64
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S64x512x1_S64x512x1024_0_1_2 : S64x512x1.BroadcastsInDim S64x512x1024 (![0, 1, 2] : Fin 3 → Fin S64x512x1024.rank)
  bcast_S9_S1x1x9_2 : S9.BroadcastsInDim S1x1x9 (![2] : Fin 1 → Fin S1x1x9.rank)
  bcast_S1x1x9_S64x512x9_0_1_2 : S1x1x9.BroadcastsInDim S64x512x9 (![0, 1, 2] : Fin 3 → Fin S64x512x9.rank)
  reducesTo_S64x512x9_S64x512_d2 : S64x512x9.ReducesTo [2] S64x512
  bcast_S64x512x1_S64x512x9_0_1_2 : S64x512x1.BroadcastsInDim S64x512x9 (![0, 1, 2] : Fin 3 → Fin S64x512x9.rank)
  gather_S64x512x1024_S64x512x1_S64x512x1024_2_1_0_0_1_2_111024_wf : GatherDims.WF S64x512x1024 S64x512x1 S64x512x1024 [2] [1] [0] [1] [0] 2 ![1, 1, 1024]
  dot_S64x512x1024_S1024x9_S64x512x9_2_0_01_1_n_n_wf : DotDims.WF S64x512x1024 S1024x9 S64x512x9 [2] [0] [0, 1] [1] [] []

variable [Facts₀]

def comparator_i32_i32_d1 : BitVec 32 × BitVec 32 → BitVec 32 × BitVec 32 → BitVec 1 :=
  fun l r =>
    let v2 := IntOp.cmpi .slt l.1 r.1
    v2
def gather_S64x512x1024_S64x512x1_S64x512x1024_2_1_0_0_1_2_111024 : GatherDims S64x512x1024 S64x512x1 S64x512x1024 where
  offsetDims := [2]
  collapsedSliceDims := [1]
  operandBatchingDims := [0]
  startIndicesBatchingDims := [0]
  startIndexMap := [1]
  indexVectorDim := 2
  sliceSizes := ![1, 1, 1024]
  wf := gather_S64x512x1024_S64x512x1_S64x512x1024_2_1_0_0_1_2_111024_wf
def dot_S64x512x1024_S1024x9_S64x512x9_2_0_01_1_n_n : DotDims S64x512x1024 S1024x9 S64x512x9 where
  lhsContracting := [2]
  rhsContracting := [0]
  lhsNonContracting := [0, 1]
  rhsNonContracting := [1]
  lhsBatch := []
  rhsBatch := []
  wf := dot_S64x512x1024_S1024x9_S64x512x9_2_0_01_1_n_n_wf

class Facts : Prop extends Facts₀ where

variable [Facts]
-- ==== Proof.Spec.lean ====
/-
  The mathematics both programs share, stated once over plain index types.

  A row of nine logits z is turned into probabilities the way both programs do it: the row maximum M is taken
  from −∞ (and joined with −∞ once more), every logit is shifted by M and exponentiated, and each exponential is
  divided by the row's sum of exponentials.

  The kernel gathers projected rows with a 0/1 selection matrix: row j of the selection matrix holds a one in
  column i exactly when the order word of row j is the number i. Summing such a row against any column p of
  extended reals picks p at the order word when the word is a row number below 512 and gives 0 otherwise
  (0 · x = 0 for every extended real x, so no finiteness is needed).
-/
import Idealize.ShloMosaic.PureOps.Ideal
import Idealize.ShloMosaic.PureOps.Ideal.Laws
import Idealize.ShloMosaic.Lib.ValueIdx

noncomputable section

namespace Cert.Spec

open Idealize.ShloMosaic

/-- −∞, as the pattern both programs start a maximum from. -/
abbrev negInf : EReal := Ideal.ofBits .f32 0xFF800000#32

/-- The maximum of a row of nine logits, from −∞. -/
def rowMax (z : Fin 9 → EReal) : EReal := max negInf (Finset.univ.fold max negInf z)

/-- Softmax of a row of nine logits, at label l. -/
def softmaxRow (z : Fin 9 → EReal) (l : Fin 9) : EReal :=
  Ideal.div (Ideal.exp (z l - rowMax z)) (∑ k : Fin 9, Ideal.exp (z k - rowMax z))

/-- Entry (·, i) of the selection matrix for a row whose order word is o: one when o is the number i, else zero. -/
def hot (o : BitVec 32) (i : Fin 512) : EReal :=
  ((((IntOp.cmpi .eq o (BitVec.ofNat 32 i.val)).setWidth 32).toInt : ℝ) : EReal)

theorem hot_self (o : BitVec 32) (h : o.toNat < 512) : hot o ⟨o.toNat, h⟩ = 1 := by
  unfold hot
  have e : BitVec.ofNat 32 o.toNat = o := by simp
  simp [IntOp.cmpi, e]

theorem hot_ne (o : BitVec 32) (i : Fin 512) (h : o.toNat ≠ i.val) : hot o i = 0 := by
  unfold hot
  have e : ¬ o = BitVec.ofNat 32 i.val := by
    intro he
    apply h
    rw [he, BitVec.toNat_ofNat]
    have := i.isLt
    omega
  have eb : (o == BitVec.ofNat 32 i.val) = false := by simpa using e
  simp [IntOp.cmpi, eb]

/-- A row of the selection matrix summed against a column. -/
theorem hot_sum (o : BitVec 32) (p : Fin 512 → EReal) :
    (∑ i : Fin 512, hot o i * p i) = if h : o.toNat < 512 then p ⟨o.toNat, h⟩ else 0 := by
  split
  · rename_i h
    rw [Finset.sum_eq_single (⟨o.toNat, h⟩ : Fin 512)]
    · rw [hot_self o h, one_mul]
    · intro i _ hi
      rw [hot_ne o i (fun e => hi (Fin.ext e.symm)), zero_mul]
    · intro hn; exact absurd (Finset.mem_univ _) hn
  · rename_i h
    refine Finset.sum_eq_zero fun i _ => ?_
    rw [hot_ne o i (fun e => h (by rw [e]; exact i.isLt)), zero_mul]

end Cert.Spec

end
-- ==== Proof.KPayload.lean ====
/-
  What one batch element's stored block holds, read at an index.

  For one batch element the kernel body projects the 512 token rows onto the nine labels (a contraction over the
  1024 features), gathers the projected rows with the 0/1 selection matrix built from the row's order words (a
  contraction over the 512 source rows), adds the bias, takes the softmax of every row of nine logits, and stores the
  result with labels and rows exchanged. So the stored block at (0, l, j) is the softmax, at label l, of the nine
  logits of row j, and logit k of row j is
      (sum over source rows i of [order word of j is i] * (sum over features h of x[i, h] * w[h, k])) + b[k].
-/
import proofs.«419048_j10359461118299_3_alg».proof.Proof.Gen.KernelIdeal.Skeleton
import proofs.«419048_j10359461118299_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayload

open Cert.KernelIdeal Cert.KernelIdeal.Gen Idealize.ShloMosaic Idealize.ShloMosaic.ValueIdx

/-! ## Layout operations on columns, read at an index -/

/-- A vector of length a cast to a column [a, 1] reads, at (i, u), the vector at i. -/
theorem cast_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast along its rows to [a, b] reads, at (p, c), the column at p. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, a] array cast to a vector of length a reads, at i, the array at (0, 0, i). -/
theorem cast_11a {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-! ## The body's stages, named -/

variable {F : FTy → Type} [FloatOps F]

/-- The projected rows: the token rows times the weights. -/
def proj (w : Vec F S1024x9 .f32) (x : Vec F S1x512x1024 .f32) : FVec F S512x9 .f32 :=
  matmul dot_S512x1024_S1024x9_S512x9_1_0_0_1_n_n none
    (truncf .bf16 (shapeCast S512x1024 x shapeCasts_S1x512x1024_S512x1024) bitsLt_bf16_f32)
    (truncf .bf16 w bitsLt_bf16_f32) (constant S512x9 .f32 0x00000000#32)

/-- The selection matrix of a row of order words. -/
def sel (o : Vec F S1x1x512 .i32) : FVec F S512x512 .f32 :=
  sitofp .f32 (extui 32 (cmpi .eq
    (broadcastTo S512x512 (shapeCast S512x1 (shapeCast S512x1 (shapeCast S512 o shapeCasts_S1x1x512_S512)
      shapeCasts_S512_S512x1) shapeCasts_S512x1_S512x1) broadcasts_S512x1_S512x512)
    (iota .tc S512x512 32 [1] iota_S512x512_d1_w32)) natLt_1_32)

/-- The logits: the selected projected rows plus the bias. -/
def logits (w : Vec F S1024x9 .f32) (b : Vec F S9 .f32) (o : Vec F S1x1x512 .i32) (x : Vec F S1x512x1024 .f32) :
    FVec F S512x9 .f32 :=
  addf (matmul dot_S512x512_S512x9_S512x9_1_0_0_1_n_n (some .fp32) (sel o) (proj w x) (constant S512x9 .f32 0x00000000#32))
    (broadcastTo S512x9 (shapeCast S1x9 b shapeCasts_S9_S1x9) broadcasts_S1x9_S512x9)

/-- The softmax of every row, stored with labels and rows exchanged. -/
def tail (z : FVec F S512x9 .f32) : FVec F S1x9x512 .f32 :=
  have v22 : FVec F S512 .f32 := multiReduction .maximumf [1] S512 z 0xFF800000#32 reduces_S512x9_S512 (.inl rfl) rfl
  have v24 : FVec F S512 .f32 := maximumf (broadcast S512 (Scalar.ofBits .f32 0xFF800000#32)) v22
  have v26 : FVec F S512x9 .f32 := broadcastTo S512x9 (shapeCast S512x1 v24 shapeCasts_S512_S512x1) broadcasts_S512x1_S512x9
  have v28 : FVec F S512x9 .f32 := exp (subf z v26)
  have v29 : FVec F S512 .f32 := multiReduction .add [1] S512 v28 0x00000000#32 reduces_S512x9_S512 (.inl rfl) rfl
  have v31 : FVec F S512x9 .f32 := broadcastTo S512x9 (shapeCast S512x1 v29 shapeCasts_S512_S512x1) broadcasts_S512x1_S512x9
  shapeCast S1x9x512 (transpose S9x512 [1, 0] (divf v28 v31) transposes_S512x9_p1_0_S9x512) shapeCasts_S9x512_S1x9x512

/-- The first unrolled step's stored value is these stages composed. -/
theorem pay4_eq (w : Vec F S1024x9 .f32) (b : Vec F S9 .f32) (o : Vec F S1x1x512 .i32) (x : Vec F S1x512x1024 .f32) :
    k0_pay4 w b o x = tail (logits w b o x) := rfl

/-- So are the other three steps', whose printed text shares the hoisted values. -/
theorem pay5_eq (w : Vec F S1024x9 .f32) (b : Vec F S9 .f32) (o : Vec F S1x1x512 .i32) (x : Vec F S1x512x1024 .f32) :
    k0_pay5 (k0_pay2 w) (k0_pay3 b) (iota .tc S512x512 32 [1] iota_S512x512_d1_w32) o x = tail (logits w b o x) := rfl

theorem pay8_eq (w : Vec F S1024x9 .f32) (b : Vec F S9 .f32) (o : Vec F S1x1x512 .i32) (x : Vec F S1x512x1024 .f32) :
    k0_pay8 (k0_pay3 b) (k0_pay6 (k0_pay2 w) x) (k0_pay7 (iota .tc S512x512 32 [1] iota_S512x512_d1_w32) o)
      = tail (logits w b o x) := rfl

theorem pay1_eq (w : Vec F S1024x9 .f32) (b : Vec F S9 .f32) (o : Vec F S1x1x512 .i32) (x : Vec F S1x512x1024 .f32) :
    k0_pay1 (k0_pay9 (k0_pay2 w) (k0_pay3 b) (iota .tc S512x512 32 [1] iota_S512x512_d1_w32) o x)
        (k0_pay10 (k0_pay2 w) (k0_pay3 b) (iota .tc S512x512 32 [1] iota_S512x512_d1_w32) o x)
      = tail (logits w b o x) := rfl

/-! ## The stages read at an index, on the extended reals -/

theorem lhsP_0 (i : S512x9.Idx) (q : dot_S512x1024_S1024x9_S512x9_1_0_0_1_n_n.contr.Idx) :
    (dot_S512x1024_S1024x9_S512x9_1_0_0_1_n_n.lhsIdx i q 0).val = (i 0).val := by
  unfold DotDims.lhsIdx
  rw [dif_neg (show ¬(0 : Fin S512x1024.rank) ∈ dot_S512x1024_S1024x9_S512x9_1_0_0_1_n_n.lhsBatch by decide), dif_pos (show (0 : Fin S512x1024.rank) ∈ dot_S512x1024_S1024x9_S512x9_1_0_0_1_n_n.lhsNonContracting by decide)]
  rfl
theorem lhsP_1 (i : S512x9.Idx) (q : dot_S512x1024_S1024x9_S512x9_1_0_0_1_n_n.contr.Idx) :
    (dot_S512x1024_S1024x9_S512x9_1_0_0_1_n_n.lhsIdx i q 1).val = (q ⟨0, by decide⟩).val :=
  dot_S512x1024_S1024x9_S512x9_1_0_0_1_n_n.lhsIdx_val_of_single rfl i q
theorem rhsP_0 (i : S512x9.Idx) (q : dot_S512x1024_S1024x9_S512x9_1_0_0_1_n_n.contr.Idx) :
    (dot_S512x1024_S1024x9_S512x9_1_0_0_1_n_n.rhsIdx i q 0).val = (q ⟨0, by decide⟩).val :=
  dot_S512x1024_S1024x9_S512x9_1_0_0_1_n_n.rhsIdx_val_of_single rfl i q
theorem rhsP_1 (i : S512x9.Idx) (q : dot_S512x1024_S1024x9_S512x9_1_0_0_1_n_n.contr.Idx) :
    (dot_S512x1024_S1024x9_S512x9_1_0_0_1_n_n.rhsIdx i q 1).val = (i 1).val := by
  unfold DotDims.rhsIdx
  rw [dif_neg (show ¬(1 : Fin S1024x9.rank) ∈ dot_S512x1024_S1024x9_S512x9_1_0_0_1_n_n.rhsBatch by decide), dif_pos (show (1 : Fin S1024x9.rank) ∈ dot_S512x1024_S1024x9_S512x9_1_0_0_1_n_n.rhsNonContracting by decide)]
  rfl

theorem lhsG_0 (i : S512x9.Idx) (q : dot_S512x512_S512x9_S512x9_1_0_0_1_n_n.contr.Idx) :
    (dot_S512x512_S512x9_S512x9_1_0_0_1_n_n.lhsIdx i q 0).val = (i 0).val := by
  unfold DotDims.lhsIdx
  rw [dif_neg (show ¬(0 : Fin S512x512.rank) ∈ dot_S512x512_S512x9_S512x9_1_0_0_1_n_n.lhsBatch by decide), dif_pos (show (0 : Fin S512x512.rank) ∈ dot_S512x512_S512x9_S512x9_1_0_0_1_n_n.lhsNonContracting by decide)]
  rfl
theorem lhsG_1 (i : S512x9.Idx) (q : dot_S512x512_S512x9_S512x9_1_0_0_1_n_n.contr.Idx) :
    (dot_S512x512_S512x9_S512x9_1_0_0_1_n_n.lhsIdx i q 1).val = (q ⟨0, by decide⟩).val :=
  dot_S512x512_S512x9_S512x9_1_0_0_1_n_n.lhsIdx_val_of_single rfl i q
theorem rhsG_0 (i : S512x9.Idx) (q : dot_S512x512_S512x9_S512x9_1_0_0_1_n_n.contr.Idx) :
    (dot_S512x512_S512x9_S512x9_1_0_0_1_n_n.rhsIdx i q 0).val = (q ⟨0, by decide⟩).val :=
  dot_S512x512_S512x9_S512x9_1_0_0_1_n_n.rhsIdx_val_of_single rfl i q
theorem rhsG_1 (i : S512x9.Idx) (q : dot_S512x512_S512x9_S512x9_1_0_0_1_n_n.contr.Idx) :
    (dot_S512x512_S512x9_S512x9_1_0_0_1_n_n.rhsIdx i q 1).val = (i 1).val := by
  unfold DotDims.rhsIdx
  rw [dif_neg (show ¬(1 : Fin S512x9.rank) ∈ dot_S512x512_S512x9_S512x9_1_0_0_1_n_n.rhsBatch by decide), dif_pos (show (1 : Fin S512x9.rank) ∈ dot_S512x512_S512x9_S512x9_1_0_0_1_n_n.rhsNonContracting by decide)]
  rfl

/-- The projection's contraction runs over the 1024 features. -/
theorem matP_apply (l : FVec Ideal S512x1024 .bf16) (r : FVec Ideal S1024x9 .bf16) (i : Fin 512) (k : Fin 9) :
    matmul dot_S512x1024_S1024x9_S512x9_1_0_0_1_n_n none l r (constant S512x9 .f32 0x00000000#32) (ix2 i k)
      = ∑ h : Fin 1024, l (ix2 i h) * r (ix2 h k) := by
  simp only [matmul]
  rw [Ideal.matmul_constant_zero_apply, ← Equiv.sum_comp (contrEquiv1 dot_S512x1024_S1024x9_S512x9_1_0_0_1_n_n 1024 rfl rfl).symm]
  refine Finset.sum_congr rfl fun h _ => ?_
  have hk := contrEquiv1_symm_val dot_S512x1024_S1024x9_S512x9_1_0_0_1_n_n 1024 rfl rfl h
  have el : dot_S512x1024_S1024x9_S512x9_1_0_0_1_n_n.lhsIdx (ix2 i k) ((contrEquiv1 dot_S512x1024_S1024x9_S512x9_1_0_0_1_n_n 1024 rfl rfl).symm h) = ix2 i h := funext fun a => Fin.ext (by
    match a with
    | ⟨0, _⟩ => exact lhsP_0 _ _
    | ⟨1, _⟩ => exact (lhsP_1 _ _).trans hk)
  have er : dot_S512x1024_S1024x9_S512x9_1_0_0_1_n_n.rhsIdx (ix2 i k) ((contrEquiv1 dot_S512x1024_S1024x9_S512x9_1_0_0_1_n_n 1024 rfl rfl).symm h) = ix2 h k := funext fun a => Fin.ext (by
    match a with
    | ⟨0, _⟩ => exact (rhsP_0 _ _).trans hk
    | ⟨1, _⟩ => exact rhsP_1 _ _)
  rw [el, er]

/-- The gather's contraction runs over the 512 source rows. -/
theorem matG_apply (l : FVec Ideal S512x512 .f32) (r : FVec Ideal S512x9 .f32) (i : Fin 512) (k : Fin 9) :
    matmul dot_S512x512_S512x9_S512x9_1_0_0_1_n_n (some .fp32) l r (constant S512x9 .f32 0x00000000#32) (ix2 i k)
      = ∑ h : Fin 512, l (ix2 i h) * r (ix2 h k) := by
  simp only [matmul]
  rw [Ideal.matmul_constant_zero_apply, ← Equiv.sum_comp (contrEquiv1 dot_S512x512_S512x9_S512x9_1_0_0_1_n_n 512 rfl rfl).symm]
  refine Finset.sum_congr rfl fun h _ => ?_
  have hk := contrEquiv1_symm_val dot_S512x512_S512x9_S512x9_1_0_0_1_n_n 512 rfl rfl h
  have el : dot_S512x512_S512x9_S512x9_1_0_0_1_n_n.lhsIdx (ix2 i k) ((contrEquiv1 dot_S512x512_S512x9_S512x9_1_0_0_1_n_n 512 rfl rfl).symm h) = ix2 i h := funext fun a => Fin.ext (by
    match a with
    | ⟨0, _⟩ => exact lhsG_0 _ _
    | ⟨1, _⟩ => exact (lhsG_1 _ _).trans hk)
  have er : dot_S512x512_S512x9_S512x9_1_0_0_1_n_n.rhsIdx (ix2 i k) ((contrEquiv1 dot_S512x512_S512x9_S512x9_1_0_0_1_n_n 512 rfl rfl).symm h) = ix2 h k := funext fun a => Fin.ext (by
    match a with
    | ⟨0, _⟩ => exact (rhsG_0 _ _).trans hk
    | ⟨1, _⟩ => exact rhsG_1 _ _)
  rw [el, er]

/-- Column i of the iota along the columns is the number i. -/
theorem iota_apply (j i : Fin 512) :
    iota .tc S512x512 32 [1] iota_S512x512_d1_w32 (ix2 j i) = BitVec.ofNat 32 i.val := by
  show BitVec.ofNat 32 (0 * 512 + i.val) = _
  rw [Nat.zero_mul, Nat.zero_add]

/-- Entry (j, i) of the selection matrix compares row j's order word with the number i. -/
theorem sel_apply (o : Vec Ideal S1x1x512 .i32) (j i : Fin 512) :
    sel (F := Ideal) o (ix2 j i) = Spec.hot (o (ix3 (0 : Fin 1) (0 : Fin 1) j)) i := by
  unfold sel Spec.hot
  show ((((IntOp.cmpi .eq (broadcastTo S512x512 (shapeCast S512x1 (shapeCast S512x1 (shapeCast S512 o shapeCasts_S1x1x512_S512)
      shapeCasts_S512_S512x1) shapeCasts_S512x1_S512x1) broadcasts_S512x1_S512x512 (ix2 j i))
      (iota .tc S512x512 32 [1] iota_S512x512_d1_w32 (ix2 j i))).setWidth 32).toInt : ℝ) : EReal) = _
  rw [bcast_col, shapeCast_self, cast_col, cast_11a, iota_apply]

/-- A projected row: the token row against the weights' column. -/
theorem proj_apply (w : Vec Ideal S1024x9 .f32) (x : Vec Ideal S1x512x1024 .f32) (i : Fin 512) (k : Fin 9) :
    proj (F := Ideal) w x (ix2 i k) = ∑ h : Fin 1024, x (ix3 (0 : Fin 1) i h) * w (ix2 h k) := by
  unfold proj
  rw [matP_apply]
  refine Finset.sum_congr rfl fun h _ => ?_
  rw [truncf_apply, truncf_apply, shapeCast_1ab_ab_apply]

/-- Logit k of row j. -/
theorem logits_apply (w : Vec Ideal S1024x9 .f32) (b : Vec Ideal S9 .f32) (o : Vec Ideal S1x1x512 .i32)
    (x : Vec Ideal S1x512x1024 .f32) (j : Fin 512) (k : Fin 9) :
    logits (F := Ideal) w b o x (ix2 j k)
      = (∑ i : Fin 512, Spec.hot (o (ix3 (0 : Fin 1) (0 : Fin 1) j)) i * ∑ h : Fin 1024, x (ix3 (0 : Fin 1) i h) * w (ix2 h k))
        + b (ix1 k) := by
  unfold logits
  rw [addf_apply, matG_apply, broadcastTo_1b_ab_apply, shapeCast_a_1a_apply]
  congr 1
  refine Finset.sum_congr rfl fun i _ => ?_
  rw [sel_apply, proj_apply]

/-- The row index with a label inserted on the reduced axis is (row, label). -/
theorem lift_row (j : Fin 512) (k : Fin 9) : reduces_S512x9_S512.lift (ix1 j) k = ix2 j k :=
  funext fun a => Fin.ext (by match a with | ⟨0, _⟩ => rfl | ⟨1, _⟩ => rfl)

/-- A row's maximum from −∞. -/
theorem rowmax_apply (z : FVec Ideal S512x9 .f32) (j : Fin 512) :
    multiReduction .maximumf [1] S512 z 0xFF800000#32 reduces_S512x9_S512 (.inl rfl) rfl (ix1 j)
      = Finset.univ.fold max Spec.negInf (fun k : Fin 9 => z (ix2 j k)) := by
  refine (Ideal.multiReduction_maximumf_single z 0xFF800000#32 reduces_S512x9_S512 (.inl rfl) rfl (ix1 j)).trans ?_
  congr 1
  funext k
  exact congrArg z (lift_row j k)

/-- A row's sum. -/
theorem rowsum_apply (e : FVec Ideal S512x9 .f32) (j : Fin 512) :
    multiReduction .add [1] S512 e 0x00000000#32 reduces_S512x9_S512 (.inl rfl) rfl (ix1 j)
      = ∑ k : Fin 9, e (ix2 j k) := by
  refine (Ideal.multiReduction_add_single e 0x00000000#32 reduces_S512x9_S512 (.inl rfl) rfl (ix1 j)).trans ?_
  exact Finset.sum_congr rfl fun k _ => congrArg e (lift_row j k)

/-- The stored block at (0, l, j) is the softmax of row j's logits at label l. -/
theorem tail_apply (z : FVec Ideal S512x9 .f32) (l : Fin 9) (j : Fin 512) :
    tail (F := Ideal) z (ix3 (0 : Fin 1) l j) = Spec.softmaxRow (fun k => z (ix2 j k)) l := by
  unfold tail
  dsimp only
  rw [shapeCast_ab_1ab_apply, transpose_ix2_apply, divf_apply, bcast_col, cast_col, rowsum_apply]
  unfold Spec.softmaxRow Spec.rowMax
  have hmax : ∀ k : Fin 9, broadcastTo S512x9 (shapeCast S512x1 (maximumf (broadcast S512 (Scalar.ofBits (F := Ideal) .f32 0xFF800000#32))
        (multiReduction .maximumf [1] S512 z 0xFF800000#32 reduces_S512x9_S512 (.inl rfl) rfl)) shapeCasts_S512_S512x1)
        broadcasts_S512x1_S512x9 (ix2 j k)
      = max Spec.negInf (Finset.univ.fold max Spec.negInf (fun k : Fin 9 => z (ix2 j k))) := by
    intro k
    rw [bcast_col, cast_col, maximumf_apply, rowmax_apply]
    rfl
  have hexp : ∀ k : Fin 9, exp (subf z (broadcastTo S512x9 (shapeCast S512x1 (maximumf (broadcast S512 (Scalar.ofBits (F := Ideal) .f32 0xFF800000#32))
        (multiReduction .maximumf [1] S512 z 0xFF800000#32 reduces_S512x9_S512 (.inl rfl) rfl)) shapeCasts_S512_S512x1)
        broadcasts_S512x1_S512x9)) (ix2 j k)
      = Ideal.exp (z (ix2 j k) - max Spec.negInf (Finset.univ.fold max Spec.negInf (fun k : Fin 9 => z (ix2 j k)))) := by
    intro k
    show Ideal.exp (z (ix2 j k) - _) = _
    rw [hmax k]
  rw [hexp l]
  congr 1
  exact Finset.sum_congr rfl fun k _ => hexp k

/-- The block one unrolled step stores, at (0, l, j). -/
theorem pay_apply (w : Vec Ideal S1024x9 .f32) (b : Vec Ideal S9 .f32) (o : Vec Ideal S1x1x512 .i32)
    (x : Vec Ideal S1x512x1024 .f32) (l : Fin 9) (j : Fin 512) :
    tail (logits (F := Ideal) w b o x) (ix3 (0 : Fin 1) l j)
      = Spec.softmaxRow (fun k => (∑ i : Fin 512, Spec.hot (o (ix3 (0 : Fin 1) (0 : Fin 1) j)) i
          * ∑ h : Fin 1024, x (ix3 (0 : Fin 1) i h) * w (ix2 h k)) + b (ix1 k)) l := by
  rw [tail_apply]
  congr 1
  funext k
  exact logits_apply w b o x j k

end Cert.KernelIdeal.KPayload

end
-- ==== Proof.KBlocks.lean ====
/-
  From the body's four stores to the whole result array.

  At every grid point the body stores four blocks of shape [1, 9, 512], one per batch element of the point's group
  of four, at rows 0, 1, 2, 3 of the output window's staging buffer of shape [4, 9, 512]. Each stored block is the
  same function (KPayload's stages) of the weights, the bias and the corresponding row of the order words' block and
  of the activations' block. So the staging buffer after the body is ONE function of its index: at (k, l, j) the
  stored block of batch element k of the group, at (0, l, j).
-/
import proofs.«419048_j10359461118299_3_alg».proof.Proof.Gen.KernelIdeal.Frame
import proofs.«419048_j10359461118299_3_alg».proof.Proof.KPayload
import Idealize.ShloMosaic.Lib.Pipeline.Value
import Idealize.ShloMosaic.Lib.ValueIdx

set_option maxRecDepth 16384

noncomputable section

namespace Cert.KernelIdeal.KBlocks

open Cert.KernelIdeal Cert.KernelIdeal.Gen Cert.KernelIdeal.KPayload
open Idealize.ShloMosaic Idealize.ShloMosaic.TcCoe Idealize.ShloMosaic.ValueIdx Idealize.SL.Sem
open Idealize.ShloMosaic.Pipeline (Dat)

variable {F : FTy → Type} [FloatOps F]

/-! ## The staging buffer after the body -/

/-- Batch element k of the group: its stored block, from the whole staged blocks. -/
def rowOut (x0 : Vec F S4x1x512 .i32) (x1 : Vec F S4x512x1024 .f32) (x2 : Vec F S1024x9 .f32) (x3 : Vec F S9 .f32)
    (k : Fin 4) : FVec F S1x9x512 .f32 :=
  tail (logits x2 x3 (fun u => x0 (ix3 k (0 : Fin 1) (⟨(u 2).val, (u 2).isLt⟩ : Fin 512)))
    (fun u => x1 (ix3 k (⟨(u 1).val, (u 1).isLt⟩ : Fin 512) (⟨(u 2).val, (u 2).isLt⟩ : Fin 1024))))

/-- The staging buffer after the body, as one function of its index. -/
def blockOut (x0 : Vec F S4x1x512 .i32) (x1 : Vec F S4x512x1024 .f32) (x2 : Vec F S1024x9 .f32) (x3 : Vec F S9 .f32) :
    Vec F S4x9x512 .f32 := fun y =>
  rowOut x0 x1 x2 x3 (⟨(y 0).val, (y 0).isLt⟩ : Fin 4)
    (ix3 (0 : Fin 1) (⟨(y 1).val, (y 1).isLt⟩ : Fin 9) (⟨(y 2).val, (y 2).isLt⟩ : Fin 512))

theorem hz2 : (![0, 0] : Fin 2 → Nat) = fun _ => 0 := funext fun a => by fin_cases a <;> rfl
theorem hz1 : (![0] : Fin 1 → Nat) = fun _ => 0 := funext fun a => by fin_cases a <;> rfl

/-- The block stored at row k of the staging buffer is that function on the block's rectangle. -/
theorem piece_eq (x0 : Vec F S4x1x512 .i32) (x1 : Vec F S4x512x1024 .f32) (x2 : Vec F S1024x9 .f32) (x3 : Vec F S9 .f32)
    (k : ℕ) (hk : k < 4)
    (inb0 : ∀ a, (![k, 0, 0] : Fin 3 → ℕ) a + S1x1x512.size a ≤ S4x1x512.size a)
    (inb1 : ∀ a, (![k, 0, 0] : Fin 3 → ℕ) a + S1x512x1024.size a ≤ S4x512x1024.size a)
    (inb4 : ∀ a, (![k, 0, 0] : Fin 3 → ℕ) a + S1x9x512.size a ≤ S4x9x512.size a)
    (x : S1x9x512.Idx) :
    tail (logits (View.ld x2 r0_0) (View.ld x3 r0_1)
        (View.ld x0 (Rect.unit (s := S4x1x512) ![k, 0, 0] S1x1x512.size inb0))
        (View.ld x1 (Rect.unit (s := S4x512x1024) ![k, 0, 0] S1x512x1024.size inb1))) x
      = blockOut x0 x1 x2 x3 ((Rect.unit (s := S4x9x512) ![k, 0, 0] S1x9x512.size inb4).emb x) := by
  have e0 : View.ld x0 (Rect.unit (s := S4x1x512) ![k, 0, 0] S1x1x512.size inb0)
      = fun u => x0 (ix3 (⟨k, hk⟩ : Fin 4) (0 : Fin 1) (⟨(u 2).val, (u 2).isLt⟩ : Fin 512)) := by
    funext u
    refine congrArg x0 (funext fun a => Fin.ext ?_)
    match a with
    | ⟨0, _⟩ => show k + 1 * (u 0).val = k; have : (u 0).val < 1 := (u 0).isLt; omega
    | ⟨1, _⟩ => show 0 + 1 * (u 1).val = 0; have : (u 1).val < 1 := (u 1).isLt; omega
    | ⟨2, _⟩ => show 0 + 1 * (u 2).val = (u 2).val; omega
  have e1 : View.ld x1 (Rect.unit (s := S4x512x1024) ![k, 0, 0] S1x512x1024.size inb1)
      = fun u => x1 (ix3 (⟨k, hk⟩ : Fin 4) (⟨(u 1).val, (u 1).isLt⟩ : Fin 512) (⟨(u 2).val, (u 2).isLt⟩ : Fin 1024)) := by
    funext u
    refine congrArg x1 (funext fun a => Fin.ext ?_)
    match a with
    | ⟨0, _⟩ => show k + 1 * (u 0).val = k; have : (u 0).val < 1 := (u 0).isLt; omega
    | ⟨1, _⟩ => show 0 + 1 * (u 1).val = (u 1).val; omega
    | ⟨2, _⟩ => show 0 + 1 * (u 2).val = (u 2).val; omega
  rw [View.ld_unit_zero (S := S1024x9) hz2, View.ld_unit_zero (S := S9) hz1, e0, e1]
  have h0 : (⟨k, hk⟩ : Fin 4)
      = ⟨(((Rect.unit (s := S4x9x512) ![k, 0, 0] S1x9x512.size inb4).emb x) 0).val,
          (((Rect.unit (s := S4x9x512) ![k, 0, 0] S1x9x512.size inb4).emb x) 0).isLt⟩ :=
    Fin.ext (by show k = k + 1 * (x 0).val; have : (x 0).val < 1 := (x 0).isLt; omega)
  have hx : x = ix3 (0 : Fin 1)
      (⟨(((Rect.unit (s := S4x9x512) ![k, 0, 0] S1x9x512.size inb4).emb x) 1).val,
          (((Rect.unit (s := S4x9x512) ![k, 0, 0] S1x9x512.size inb4).emb x) 1).isLt⟩ : Fin 9)
      (⟨(((Rect.unit (s := S4x9x512) ![k, 0, 0] S1x9x512.size inb4).emb x) 2).val,
          (((Rect.unit (s := S4x9x512) ![k, 0, 0] S1x9x512.size inb4).emb x) 2).isLt⟩ : Fin 512) :=
    funext fun a => Fin.ext (by
      match a with
      | ⟨0, _⟩ => show (x 0).val = 0; have : (x 0).val < 1 := (x 0).isLt; omega
      | ⟨1, _⟩ => show (x 1).val = 0 + 1 * (x 1).val; omega
      | ⟨2, _⟩ => show (x 2).val = 0 + 1 * (x 2).val; omega)
  exact congrArg₂ (fun a b => rowOut x0 x1 x2 x3 a b) h0 hx

/-- The staging buffer after the body is that one function. -/
theorem out_apply (x0 : Vec F S4x1x512 .i32) (x1 : Vec F S4x512x1024 .f32) (x2 : Vec F S1024x9 .f32) (x3 : Vec F S9 .f32) :
    out0_4 x0 x1 x2 x3 = blockOut x0 x1 x2 x3 := by
  funext y
  unfold out0_4
  refine View.canon_apply_of_pieces (blockOut x0 x1 x2 x3) _ ?_ y (cover0_4 _ _ _ _ y)
  intro p hp
  simp only [List.mem_cons, List.mem_nil_iff, or_false] at hp
  rcases hp with rfl | rfl | rfl | rfl
  · intro x
    exact (congrFun (pay1_eq _ _ _ _) x).trans (piece_eq x0 x1 x2 x3 3 (by decide) inb_S4x1x512_S1x1x512_3_0_0 inb_S4x512x1024_S1x512x1024_3_0_0 inb_S4x9x512_S1x9x512_3_0_0 x)
  · intro x
    exact (congrFun (pay8_eq _ _ _ _) x).trans (piece_eq x0 x1 x2 x3 2 (by decide) inb_S4x1x512_S1x1x512_2_0_0 inb_S4x512x1024_S1x512x1024_2_0_0 inb_S4x9x512_S1x9x512_2_0_0 x)
  · intro x
    exact (congrFun (pay5_eq _ _ _ _) x).trans (piece_eq x0 x1 x2 x3 1 (by decide) inb_S4x1x512_S1x1x512_1_0_0 inb_S4x512x1024_S1x512x1024_1_0_0 inb_S4x9x512_S1x9x512_1_0_0 x)
  · intro x
    exact (congrFun (pay4_eq _ _ _ _) x).trans (piece_eq x0 x1 x2 x3 0 (by decide) inb_S4x1x512_S1x1x512_0_0_0 inb_S4x512x1024_S1x512x1024_0_0_0 inb_S4x9x512_S1x9x512_0_0_0 x)

/-! ## The result array after the region -/

/-- The region's result array as one function of the arrays the region finds: at (bi, l, j) the stored block of batch
    element bi, built from row bi of the order words and of the activations, at (0, l, j). -/
def arrOut (OM : S64x1x512.Idx → Elt F .i32) (X : S64x512x1024.Idx → Elt F .f32) (W : Vec F S1024x9 .f32) (B : Vec F S9 .f32) :
    S64x9x512.Idx → Elt F .f32 := fun i =>
  tail (logits W B (fun u => OM (ix3 (⟨(i 0).val, (i 0).isLt⟩ : Fin 64) (0 : Fin 1) (⟨(u 2).val, (u 2).isLt⟩ : Fin 512)))
      (fun u => X (ix3 (⟨(i 0).val, (i 0).isLt⟩ : Fin 64) (⟨(u 1).val, (u 1).isLt⟩ : Fin 512) (⟨(u 2).val, (u 2).isLt⟩ : Fin 1024))))
    (ix3 (0 : Fin 1) (⟨(i 1).val, (i 1).isLt⟩ : Fin 9) (⟨(i 2).val, (i 2).isLt⟩ : Fin 512))

/-- The staging buffer of point tv, whose blocks are rows 4·tv … 4·tv + 3 of the arrays, is the corresponding block of
    the result array. -/
theorem block_eq_arr (x0 : Vec F S4x1x512 .i32) (x1 : Vec F S4x512x1024 .f32) (x2 : Vec F S1024x9 .f32) (x3 : Vec F S9 .f32)
    (OM : S64x1x512.Idx → Elt F .i32) (X : S64x512x1024.Idx → Elt F .f32) (W : Vec F S1024x9 .f32) (B : Vec F S9 .f32)
    (tv : ℕ) (ht : tv < 16)
    (h0 : ∀ (k : Fin 4) (j : Fin 512), x0 (ix3 k (0 : Fin 1) j) = OM (ix3 (⟨tv * 4 + k.val, by omega⟩ : Fin 64) (0 : Fin 1) j))
    (h1 : ∀ (k : Fin 4) (r : Fin 512) (h : Fin 1024), x1 (ix3 k r h) = X (ix3 (⟨tv * 4 + k.val, by omega⟩ : Fin 64) r h))
    (h2 : x2 = W) (h3 : x3 = B)
    (y : S4x9x512.Idx) (i : S64x9x512.Idx) (hi0 : (i 0).val = tv * 4 + (y 0).val) (hi1 : (i 1).val = (y 1).val)
    (hi2 : (i 2).val = (y 2).val) :
    blockOut x0 x1 x2 x3 y = arrOut OM X W B i := by
  subst h2 h3
  unfold blockOut arrOut rowOut
  have eO : (fun u : S1x1x512.Idx => x0 (ix3 (⟨(y 0).val, (y 0).isLt⟩ : Fin 4) (0 : Fin 1) (⟨(u 2).val, (u 2).isLt⟩ : Fin 512)))
      = fun u => OM (ix3 (⟨(i 0).val, (i 0).isLt⟩ : Fin 64) (0 : Fin 1) (⟨(u 2).val, (u 2).isLt⟩ : Fin 512)) :=
    funext fun u => (h0 _ _).trans (congrArg OM (congrArg (fun a : Fin 64 => ix3 a (0 : Fin 1) (⟨(u 2).val, (u 2).isLt⟩ : Fin 512))
      (Fin.ext hi0.symm)))
  have eX : (fun u : S1x512x1024.Idx => x1 (ix3 (⟨(y 0).val, (y 0).isLt⟩ : Fin 4) (⟨(u 1).val, (u 1).isLt⟩ : Fin 512) (⟨(u 2).val, (u 2).isLt⟩ : Fin 1024)))
      = fun u => X (ix3 (⟨(i 0).val, (i 0).isLt⟩ : Fin 64) (⟨(u 1).val, (u 1).isLt⟩ : Fin 512) (⟨(u 2).val, (u 2).isLt⟩ : Fin 1024)) :=
    funext fun u => (h1 _ _ _).trans (congrArg X (congrArg (fun a : Fin 64 => ix3 a (⟨(u 1).val, (u 1).isLt⟩ : Fin 512) (⟨(u 2).val, (u 2).isLt⟩ : Fin 1024))
      (Fin.ext hi0.symm)))
  have eP : (ix3 (0 : Fin 1) (⟨(y 1).val, (y 1).isLt⟩ : Fin 9) (⟨(y 2).val, (y 2).isLt⟩ : Fin 512) : S1x9x512.Idx)
      = ix3 (0 : Fin 1) (⟨(i 1).val, (i 1).isLt⟩ : Fin 9) (⟨(i 2).val, (i 2).isLt⟩ : Fin 512) :=
    congrArg₂ (fun (a : Fin 9) (b : Fin 512) => (ix3 (0 : Fin 1) a b : S1x9x512.Idx)) (Fin.ext hi1.symm) (Fin.ext hi2.symm)
  rw [eO, eX, eP]

variable (m : (ℓ : Loc nD τ sig) → Buf (Elt F) ℓ) (ρ : Dev nD → PrngReg)

/-- The printed index maps over the grid: the order words', the activations' and the result's windows move one block
    of four batch elements per point; the weights and the bias are whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- What point t writes back is block t of the result array. -/
theorem flushed_eq (c : Dev nD) (t : Fin cfg0.N) :
    (dats m 0 c).flushed 4 t
      = ((cfg0.win 4).blk t).view.read (Elt F) (arrOut (V m c main_v15) (V m c main_arg0) (V m c main_arg2) (V m c main_arg3)) := by
  show (cfg0.win 4).cut (grid0.coords t) ((dats m 0 c).after 4 t) = _
  rw [after0_4, out_apply]
  obtain ⟨a0, a1, a2, b0, b1, b2, w0, w1, s0, o0, o1, o2⟩ := idx_facts t
  have htN : t.val < 16 := Nat.lt_of_lt_of_eq t.isLt (show cfg0.N = 16 from N_0)
  funext y
  show blockOut (iblk m c 0 t) (iblk m c 1 t) (iblk m c 2 t) (iblk m c 3 t) y
      = arrOut (V m c main_v15) (V m c main_arg0) (V m c main_arg2) (V m c main_arg3) (((cfg0.win 4).blk t).view.emb y)
  refine block_eq_arr (iblk m c 0 t) (iblk m c 1 t) (iblk m c 2 t) (iblk m c 3 t) (V m c main_v15) (V m c main_arg0)
    (V m c main_arg2) (V m c main_arg3) t.val htN ?_ ?_ ?_ ?_ y (((cfg0.win 4).blk t).view.emb y) ?_ ?_ ?_
  · intro k j
    show V m c main_v15 (((cfg0.win 0).blk t).view.emb (ix3 k (0 : Fin 1) j)) = _
    refine congrArg (V m c main_v15) (funext fun a => Fin.ext ?_)
    match a with
    | ⟨0, _⟩ => show win0_0.index t (0 : Fin 3) * 4 + 1 * k.val = t.val * 4 + k.val; omega
    | ⟨1, _⟩ => show win0_0.index t (1 : Fin 3) * 1 + 1 * 0 = 0; omega
    | ⟨2, _⟩ => show win0_0.index t (2 : Fin 3) * 512 + 1 * j.val = j.val; omega
  · intro k r h
    show V m c main_arg0 (((cfg0.win 1).blk t).view.emb (ix3 k r h)) = _
    refine congrArg (V m c main_arg0) (funext fun a => Fin.ext ?_)
    match a with
    | ⟨0, _⟩ => show win0_1.index t (0 : Fin 3) * 4 + 1 * k.val = t.val * 4 + k.val; omega
    | ⟨1, _⟩ => show win0_1.index t (1 : Fin 3) * 512 + 1 * r.val = r.val; omega
    | ⟨2, _⟩ => show win0_1.index t (2 : Fin 3) * 1024 + 1 * h.val = h.val; omega
  · funext u
    show V m c main_arg2 (((cfg0.win 2).blk t).view.emb u) = V m c main_arg2 u
    refine congrArg (V m c main_arg2) (funext fun a => Fin.ext ?_)
    match a with
    | ⟨0, _⟩ => show win0_2.index t (0 : Fin 2) * 1024 + 1 * (u 0).val = (u 0).val; omega
    | ⟨1, _⟩ => show win0_2.index t (1 : Fin 2) * 9 + 1 * (u 1).val = (u 1).val; omega
  · funext u
    show V m c main_arg3 (((cfg0.win 3).blk t).view.emb u) = V m c main_arg3 u
    refine congrArg (V m c main_arg3) (funext fun a => Fin.ext ?_)
    match a with
    | ⟨0, _⟩ => show win0_3.index t (0 : Fin 1) * 9 + 1 * (u 0).val = (u 0).val; omega
  · show win0_4.index t (0 : Fin 3) * 4 + 1 * (y 0).val = t.val * 4 + (y 0).val; omega
  · show win0_4.index t (1 : Fin 3) * 9 + 1 * (y 1).val = (y 1).val; omega
  · show win0_4.index t (2 : Fin 3) * 512 + 1 * (y 2).val = (y 2).val; omega

/-- An index of the result array is in point t's block iff each coordinate is in the block's range on its axis. -/
theorem mem_blk4 (t : Fin cfg0.N) (i : S64x9x512.Idx) :
    i ∈ ((cfg0.win 4).blk t).view.set ↔ ∀ a : Fin 3, win0_4.index t a * S4x9x512.size a ≤ (i a).val
      ∧ (i a).val < win0_4.index t a * S4x9x512.size a + S4x9x512.size a := by
  show i ∈ ((View.whole main_v16).slice (win0_4.rect t)).set ↔ _
  rw [View.set_slice_whole, Rect.mem_set_unit]
  exact Iff.rfl

/-- Every index of the result array is in the block of the point its batch element belongs to. -/
theorem cover4 (i : S64x9x512.Idx) :
    ∃ t : Fin cfg0.N, (cfg0.win 4).flush t = true ∧ i ∈ ((cfg0.win 4).blk t).view.set := by
  have hi0 : (i 0).val < 64 := (i 0).isLt
  have hi1 : (i 1).val < 9 := (i 1).isLt
  have hi2 : (i 2).val < 512 := (i 2).isLt
  have hN : cfg0.N = 16 := N_0
  refine ⟨⟨(i 0).val / 4, by rw [hN]; omega⟩, flush0_4 _, ?_⟩
  rw [mem_blk4]
  obtain ⟨-, -, -, -, -, -, -, -, -, o0, o1, o2⟩ := idx_facts ⟨(i 0).val / 4, by rw [hN]; omega⟩
  intro a
  match a with
  | ⟨0, _⟩ =>
    show win0_4.index _ (0 : Fin 3) * 4 ≤ (i 0).val ∧ (i 0).val < win0_4.index _ (0 : Fin 3) * 4 + 4
    rw [o0]
    show (i 0).val / 4 * 4 ≤ (i 0).val ∧ (i 0).val < (i 0).val / 4 * 4 + 4
    omega
  | ⟨1, _⟩ =>
    show win0_4.index _ (1 : Fin 3) * 9 ≤ (i 1).val ∧ (i 1).val < win0_4.index _ (1 : Fin 3) * 9 + 9
    rw [o1]; omega
  | ⟨2, _⟩ =>
    show win0_4.index _ (2 : Fin 3) * 512 ≤ (i 2).val ∧ (i 2).val < win0_4.index _ (2 : Fin 3) * 512 + 512
    rw [o2]; omega

/-- The result array after the region. -/
theorem final4 (c : Dev nD) :
    (dats m 0 c).arrAt 4 cfg0.N = arrOut (V m c main_v15) (V m c main_arg0) (V m c main_arg2) (V m c main_arg3) :=
  (dats m 0 c).arrAt_eq_of_cover 4 _ (fun t _ => flushed_eq m c t) cover4

end Cert.KernelIdeal.KBlocks

end
-- ==== Proof.KRun.lean ====
/-
  The kernel program's run: what its result holds.

  Before the region the host computes, from the mask alone, each row's order words (the column numbers in the stable
  order of the keys (1 − mask) · 512 + column) and replaces the words at columns not below the row's count of ones by
  −1; the region finds them as the order words' array. After the region the host exchanges labels and rows of the
  region's result array.
-/
import proofs.«419048_j10359461118299_3_alg».proof.Proof.KBlocks
import Idealize.ShloMosaic.Lib.StableHlo.Run

set_option maxRecDepth 16384

noncomputable section

namespace Cert.KernelIdeal.KRun

open Cert.KernelIdeal Cert.KernelIdeal.Gen Cert.KernelIdeal.KPayload Cert.KernelIdeal.KBlocks
open Idealize.ShloMosaic Idealize.ShloMosaic.TcCoe Idealize.ShloMosaic.ValueIdx Idealize.SL.Sem Idealize.ShloMosaic.StableHlo

variable {F : FTy → Type} [FloatOps F]

/-- The order words the host stages for the region, from the mask. -/
def orderMasked (x1 : (⟨S64x512, .i32⟩ : BufTy).Contents (Elt F)) : (⟨S64x1x512, .i32⟩ : BufTy).Contents (Elt F) :=
  shapeCast S64x1x512
    (select
      (cmpi CmpIPredicate.slt
        (broadcastInDim S64x512 ![0, 1] bcast_S1x512_S64x512_0_1
          (broadcastInDim S1x512 ![1] bcast_S512_S1x512_1 (iotaInDim S512 32 0)))
        (broadcastInDim S64x512 ![0, 1] bcast_S64x1_S64x512_0_1
          (broadcastInDim S64x1 ![0] bcast_S64_S64x1_0
            (Host.reduce IntOp.addi x1 (constantI S_ 32 0#32) reducesTo_S64x512_S64_d1 h_S_))))
      (Host.sort2 S64x512 1 comparator_i32_i32_d1
          (addi
            (muli
              (subi (broadcastInDim S64x512 ![] bcast_S_S64x512 (constantI S_ 32 1#32)) x1)
              (broadcastInDim S64x512 ![] bcast_S_S64x512 (constantI S_ 32 512#32)))
            (broadcastInDim S64x512 ![0, 1] bcast_S1x512_S64x512_0_1
              (broadcastInDim S1x512 ![1] bcast_S512_S1x512_1 (iotaInDim S512 32 0))))
          (iotaInDim S64x512 32 1)).2
      (broadcastInDim S64x512 ![] bcast_S_S64x512 (constantI S_ 32 4294967295#32)))
    shapeCasts_S64x512_S64x1x512

variable (m : (ℓ : Loc nD τ sig) → Buf (Elt F) ℓ) (ρ : Dev nD → PrngReg)

set_option maxHeartbeats 4000000 in
/-- The region finds the order words' array at that term of the mask as launched. -/
theorem V_main_v15 (c : Dev nD) : V m c main_v15 = orderMasked (m ((c.tc : Thread nD τ).loc main_arg1)) := by
  dsimp only [V, V0]
  simp only [hostOps0, hostOps0_1, hostOps0_2, hostOps0_3, hostOps0_4, List.flatten_cons, List.flatten_nil, List.append_nil,
    List.cons_append, List.nil_append]
  after_results_simp
  simp only [TRef.ofBuf, TRef.toBuf, cast_eq]
  rfl

/-- The program's result is the region's result array with labels and rows exchanged. -/
theorem tail_eq (c : Dev nD) :
    Pipeline.afterTail₀ cfgs (dats m) 0 (V0 m) [hostOps1] c main_v17
      = transpose S64x512x9 [0, 2, 1]
          (arrOut (V m c main_v15) (V m c main_arg0) (V m c main_arg2) (V m c main_arg3))
          transposes_S64x9x512_S64x512x9_0_2_1 := by
  unfold Pipeline.afterTail₀
  show StableHlo.after hostOps1 _ (Proc.devRef .tc main_v17) = _
  after_results
  rw [(Pipeline.withArrays_arr spec0 launch0.win.arr_inj c _ _ 4).trans (final4 m c)]

/-- The kernel program runs, its result at the exchanged softmax blocks of the launch contents and its arguments
    unchanged. -/
theorem run : θ_run defs (onTc (τ := τ) (main (F := F))) ⟨m, fun _ => 0, ρ⟩ fun r => ∀ c : Dev nD,
      r.2.mem ((c.tc : Thread nD τ).loc main_v17)
        = transpose S64x512x9 [0, 2, 1]
            (arrOut (orderMasked (m ((c.tc : Thread nD τ).loc main_arg1))) (m ((c.tc : Thread nD τ).loc main_arg0))
              (m ((c.tc : Thread nD τ).loc main_arg2)) (m ((c.tc : Thread nD τ).loc main_arg3)))
            transposes_S64x9x512_S64x512x9_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v17 (Pipeline.mem_restRefs_of main_v17 (by decide) (by decide))).trans
        ((tail_eq m c).trans (by rw [V_main_v15, V_main_arg0, V_main_arg2, V_main_arg3])),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KRun

end
-- ==== Proof.RefValue.lean ====
/-
  The reference, read at an index.

  The reference sorts each row's keys carrying the column numbers, so every order word is a column number below 512:
  the gather of the activations' rows never leaves the array, its guard is all ones, and a gathered row is the
  activations' row the order word names. Rows past the number of valid tokens are replaced by zeros. The logits are
  the rows times the weights plus the bias, and the result is the softmax of every row of nine logits.
-/
import proofs.«419048_j10359461118299_3_alg».proof.Proof.RefRead
import proofs.«419048_j10359461118299_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.ValueIdx

/-! ## The gather of rows along axis 1, batched over axis 0 -/

theorem gather_ax0 {w : ℕ} (idx : IVec S64x512x1 w) (bi : Fin 64) (j : Fin 512) (h : Fin 1024) :
    ((gather_S64x512x1024_S64x512x1_S64x512x1024_2_1_0_0_1_2_111024.operandIdx (ix3 bi j h) idx) 0).val = bi.val := by
  show gather_S64x512x1024_S64x512x1_S64x512x1024_2_1_0_0_1_2_111024.start (ix3 bi j h) idx 0 + gather_S64x512x1024_S64x512x1_S64x512x1024_2_1_0_0_1_2_111024.batchCoord (ix3 bi j h) 0 + gather_S64x512x1024_S64x512x1_S64x512x1024_2_1_0_0_1_2_111024.offCoord (ix3 bi j h) 0 = _
  rw [gather_S64x512x1024_S64x512x1_S64x512x1024_2_1_0_0_1_2_111024.offCoord_eq_zero _ _ (by decide), gather_S64x512x1024_S64x512x1_S64x512x1024_2_1_0_0_1_2_111024.start_batching _ _ _ (by decide)]
  simp only [Nat.add_zero, Nat.zero_add]
  unfold GatherDims.batchCoord
  rw [dif_pos (by decide)]
  unfold GatherDims.siCoord
  simp only [Fin.val_cast]
  rfl

theorem gather_ax2 {w : ℕ} (idx : IVec S64x512x1 w) (bi : Fin 64) (j : Fin 512) (h : Fin 1024) :
    ((gather_S64x512x1024_S64x512x1_S64x512x1024_2_1_0_0_1_2_111024.operandIdx (ix3 bi j h) idx) 2).val = h.val := by
  show gather_S64x512x1024_S64x512x1_S64x512x1024_2_1_0_0_1_2_111024.start (ix3 bi j h) idx 2 + gather_S64x512x1024_S64x512x1_S64x512x1024_2_1_0_0_1_2_111024.batchCoord (ix3 bi j h) 2 + gather_S64x512x1024_S64x512x1_S64x512x1024_2_1_0_0_1_2_111024.offCoord (ix3 bi j h) 2 = _
  rw [gather_S64x512x1024_S64x512x1_S64x512x1024_2_1_0_0_1_2_111024.batchCoord_eq_zero _ _ (by decide)]
  unfold GatherDims.start
  rw [dif_neg (by decide)]
  simp only [Nat.add_zero, Nat.zero_add]
  unfold GatherDims.offCoord
  rw [dif_pos (by decide)]
  rfl

/-- The start index of result element (bi, j, h) is read at (bi, j, 0). -/
theorem gather_si (bi : Fin 64) (j : Fin 512) (h : Fin 1024) (c : Fin gather_S64x512x1024_S64x512x1_S64x512x1024_2_1_0_0_1_2_111024.startIndexMap.length) :
    gather_S64x512x1024_S64x512x1_S64x512x1024_2_1_0_0_1_2_111024.siIdx (ix3 bi j h) c = ix3 bi j (0 : Fin 1) := by
  funext b
  refine Fin.ext ?_
  match b with
  | ⟨0, _⟩ => rfl
  | ⟨1, _⟩ => rfl
  | ⟨2, hb⟩ =>
    have h1 : (gather_S64x512x1024_S64x512x1_S64x512x1024_2_1_0_0_1_2_111024.siIdx (ix3 bi j h) c ⟨2, hb⟩).val < 1 := (gather_S64x512x1024_S64x512x1_S64x512x1024_2_1_0_0_1_2_111024.siIdx (ix3 bi j h) c ⟨2, hb⟩).isLt
    show (gather_S64x512x1024_S64x512x1_S64x512x1024_2_1_0_0_1_2_111024.siIdx (ix3 bi j h) c ⟨2, hb⟩).val = 0
    omega

theorem gather_ax1 {w : ℕ} (idx : IVec S64x512x1 w) (bi : Fin 64) (j : Fin 512) (h : Fin 1024) :
    ((gather_S64x512x1024_S64x512x1_S64x512x1024_2_1_0_0_1_2_111024.operandIdx (ix3 bi j h) idx) 1).val = min (idx (ix3 bi j (0 : Fin 1))).toInt.toNat 511 := by
  show gather_S64x512x1024_S64x512x1_S64x512x1024_2_1_0_0_1_2_111024.start (ix3 bi j h) idx 1 + gather_S64x512x1024_S64x512x1_S64x512x1024_2_1_0_0_1_2_111024.batchCoord (ix3 bi j h) 1 + gather_S64x512x1024_S64x512x1_S64x512x1024_2_1_0_0_1_2_111024.offCoord (ix3 bi j h) 1 = _
  rw [gather_S64x512x1024_S64x512x1_S64x512x1024_2_1_0_0_1_2_111024.batchCoord_eq_zero _ _ (by decide), gather_S64x512x1024_S64x512x1_S64x512x1024_2_1_0_0_1_2_111024.offCoord_eq_zero _ _ (by decide)]
  simp only [Nat.add_zero]
  unfold GatherDims.start
  rw [dif_pos (by decide), gather_si]
  rfl

/-- The gather at (bi, j, h): the operand at batch bi, at the row the start index names (read signed, clamped into the
    array), at column h. -/
theorem gather_apply {α : Type} {w : ℕ} (x : S64x512x1024.Idx → α) (idx : IVec S64x512x1 w) (bi : Fin 64) (j : Fin 512)
    (h : Fin 1024) :
    Host.gather gather_S64x512x1024_S64x512x1_S64x512x1024_2_1_0_0_1_2_111024 x idx (ix3 bi j h)
      = x (ix3 bi (⟨min (idx (ix3 bi j (0 : Fin 1))).toInt.toNat 511, by omega⟩ : Fin 512) h) := by
  unfold Host.gather
  refine congrArg x (funext fun a => Fin.ext ?_)
  match a with
  | ⟨0, _⟩ => exact gather_ax0 idx bi j h
  | ⟨1, _⟩ => exact gather_ax1 idx bi j h
  | ⟨2, _⟩ => exact gather_ax2 idx bi j h

/-! ## The order words -/

/-- Every order word is a column number: the sort carries the iota along the sorted axis. -/
theorem ord_lt (x1 : (⟨S64x512, .i32⟩ : BufTy).Contents (Elt Ideal)) (i : S64x512.Idx) :
    (val_main_v8 (F := Ideal) x1 i).toNat < 512 := by
  unfold val_main_v8 Host.sort2
  rw [dif_pos (show 1 < S64x512.rank by decide)]
  dsimp only
  rw [val_main_call0_v0_apply]
  have key : ∀ (f : S64x512.Idx), (BitVec.ofNat 32 (f 1).val).toNat < 512 := fun f => by
    rw [BitVec.toNat_ofNat]; exact Nat.lt_of_le_of_lt (Nat.mod_le _ _) (f 1).isLt
  exact key _

/-- A word below 512 is not negative, lies in [0, 511], and reads signed as itself. -/
theorem word_facts (o : BitVec 32) (h : o.toNat < 512) :
    IntOp.cmpi .slt o 0#32 = 0#1 ∧ IntOp.cmpi .sge o 0#32 = 1#1 ∧ IntOp.cmpi .sle o 511#32 = 1#1 ∧ o.toInt.toNat = o.toNat := by
  have hi : o.toInt = (o.toNat : ℤ) := by
    rw [BitVec.toInt_eq_toNat_cond]; split <;> omega
  have h511 : (511#32 : BitVec 32).toInt = 511 := by decide
  have h0' : (0#32 : BitVec 32).toInt = 0 := by decide
  refine ⟨?_, ?_, ?_, ?_⟩
  · simp only [IntOp.cmpi, BitVec.slt, hi, h0']
    rw [decide_eq_false (by omega)]; rfl
  · simp only [IntOp.cmpi, BitVec.sle, hi, h0']
    rw [decide_eq_true (by omega)]; rfl
  · simp only [IntOp.cmpi, BitVec.sle, hi, h511]
    rw [decide_eq_true (by omega)]; rfl
  · rw [hi]; rfl

/-- A fold over the one coordinate of an axis of extent one. -/
theorem fold_fin1 {β : Type} (op : β → β → β) [Std.Commutative op] [Std.Associative op] (b : β) (f : Fin 1 → β) :
    (Finset.univ : Finset (Fin 1)).fold op b f = op (f 0) b := by
  have hu : (Finset.univ : Finset (Fin 1)) = {0} := rfl
  rw [hu, Finset.fold_singleton]

variable (x0 : (⟨S64x512x1024, .f32⟩ : BufTy).Contents (Elt Ideal)) (x1 : (⟨S64x512, .i32⟩ : BufTy).Contents (Elt Ideal)) (x2 : (⟨S1024x9, .f32⟩ : BufTy).Contents (Elt Ideal)) (x3 : (⟨S9, .f32⟩ : BufTy).Contents (Elt Ideal))

theorem idx9 (bi : Fin 64) (j : Fin 512) : idx_main_v9 (ix3 bi j (0 : Fin 1)) = ix2 bi j :=
  funext fun a => Fin.ext (by match a with | ⟨0, _⟩ => rfl | ⟨1, _⟩ => rfl)

/-- The start index the gather reads is the order word itself (it is not negative, so nothing is added to it). -/
theorem start_apply (bi : Fin 64) (j : Fin 512) :
    val_main_call1_v4 (F := Ideal) x1 (ix3 bi j (0 : Fin 1)) = val_main_v8 (F := Ideal) x1 (ix2 bi j) := by
  obtain ⟨hs, -, -, -⟩ := word_facts _ (ord_lt x1 (ix2 bi j))
  rw [val_main_call1_v4_apply, val_main_call1_v1_apply, val_main_v9_apply, val_main_call1_v0_apply,
    val_main_call1_c_apply, idx9, hs, select_zero]

/-- The gather's guard is one on every row. -/
theorem guard_apply (bi : Fin 64) (j : Fin 512) : val_main_call1_v11 (F := Ideal) x1 (ix2 bi j) = 1#1 := by
  obtain ⟨-, hge, hle, -⟩ := word_facts _ (ord_lt x1 (ix2 bi j))
  have h10 : val_main_call1_v10 (F := Ideal) x1 (ix3 bi j (0 : Fin 1)) = 1#1 := by
    rw [val_main_call1_v10_apply, val_main_call1_v6_apply, val_main_call1_v9_apply, start_apply,
      val_main_call1_v5_apply, val_main_call1_c_2_apply, val_main_call1_v8_apply, val_main_call1_v7_apply,
      val_main_call1_c_1_apply, hge, hle]
    rfl
  unfold val_main_call1_v11
  rw [Host.reduce_eq_fold_single IntOp.andi _ _ reducesTo_S64x512x1_S64x512_d2 (by decide) h_S_ (ix2 bi j)]
  refine (fold_fin1 IntOp.andi _ _).trans ?_
  have hl : (by decide : S64x512x1.Reduces [2] S64x512).lift (ix2 bi j) (0 : Fin 1) = ix3 bi j (0 : Fin 1) :=
    funext fun a => Fin.ext (by match a with | ⟨0, _⟩ => rfl | ⟨1, _⟩ => rfl | ⟨2, _⟩ => rfl)
  show IntOp.andi (val_main_call1_v10 (F := Ideal) x1 ((by decide : S64x512x1.Reduces [2] S64x512).lift (ix2 bi j) (0 : Fin 1))) _ = _
  rw [hl, h10]
  rfl

end Cert.ReferenceIdeal.RefValue

end
-- ==== Proof.RefLogits.lean ====
/-
  The reference's compacted rows, logits and softmax, read at an index.

  A compacted row is the activations' row the order word names where the row is kept and the zero row elsewhere; a
  logit is the row against a column of the weights plus the bias; the result is the softmax of every row of nine
  logits, its maximum taken from −∞ and its sum of exponentials from 0.
-/
import proofs.«419048_j10359461118299_3_alg».proof.Proof.RefValue

noncomputable section

namespace Cert.ReferenceIdeal.RefValue

open Cert.ReferenceIdeal Cert.ReferenceIdeal.Gen Cert.ReferenceIdeal.ReadP
open Idealize.ShloMosaic Idealize.ShloMosaic.ValueIdx

variable (x0 : (⟨S64x512x1024, .f32⟩ : BufTy).Contents (Elt Ideal)) (x1 : (⟨S64x512, .i32⟩ : BufTy).Contents (Elt Ideal)) (x2 : (⟨S1024x9, .f32⟩ : BufTy).Contents (Elt Ideal)) (x3 : (⟨S9, .f32⟩ : BufTy).Contents (Elt Ideal))

theorem idx16 (bi : Fin 64) (j : Fin 512) (h : Fin 1024) :
    idx_main_v16 (idx_main_call2_v0 (ix3 bi j h)) = ix2 bi j :=
  funext fun a => Fin.ext (by match a with | ⟨0, _⟩ => rfl | ⟨1, _⟩ => rfl)

theorem idx13 (bi : Fin 64) (j : Fin 512) (h : Fin 1024) : idx_main_call1_v13 (ix3 bi j h) = ix2 bi j :=
  funext fun a => Fin.ext (by match a with | ⟨0, _⟩ => rfl | ⟨1, _⟩ => rfl)

/-- A compacted row: the activations' row the order word names where the row is kept, zeros elsewhere. -/
theorem rows_apply (bi : Fin 64) (j : Fin 512) (h : Fin 1024) :
    val_main_v17 (F := Ideal) x0 x1 (ix3 bi j h)
      = Scalar.select (val_main_v15 (F := Ideal) x1 (ix2 bi j))
          (x0 (ix3 bi (⟨(val_main_v8 (F := Ideal) x1 (ix2 bi j)).toNat, ord_lt x1 (ix2 bi j)⟩ : Fin 512) h))
          (Ideal.ofBits .f32 0x00000000#32) := by
  rw [val_main_v17_apply, val_main_call2_v0_apply, val_main_v16_apply, idx16, val_main_call2_v1_apply, val_main_cst_apply,
    val_main_v10_apply, val_main_call1_v13_apply, idx13, guard_apply, select_one]
  refine congrArg (fun a => Scalar.select (val_main_v15 (F := Ideal) x1 (ix2 bi j)) a (Ideal.ofBits .f32 0x00000000#32)) ?_
  obtain ⟨-, -, -, hnat⟩ := word_facts _ (ord_lt x1 (ix2 bi j))
  have hlt := ord_lt x1 (ix2 bi j)
  refine (gather_apply x0 (val_main_call1_v4 (F := Ideal) x1) bi j h).trans ?_
  refine congrArg x0 (congrArg (fun a : Fin 512 => ix3 bi a h) (Fin.ext ?_))
  show min (val_main_call1_v4 (F := Ideal) x1 (ix3 bi j (0 : Fin 1))).toInt.toNat 511 = (val_main_v8 (F := Ideal) x1 (ix2 bi j)).toNat
  rw [start_apply, hnat]; omega

/-- Logit l of row (bi, j). -/
theorem logits_apply (bi : Fin 64) (j : Fin 512) (l : Fin 9) :
    val_main_v21 (F := Ideal) x0 x1 x2 x3 (ix3 bi j l)
      = (∑ h : Fin 1024, Scalar.select (val_main_v15 (F := Ideal) x1 (ix2 bi j))
            (x0 (ix3 bi (⟨(val_main_v8 (F := Ideal) x1 (ix2 bi j)).toNat, ord_lt x1 (ix2 bi j)⟩ : Fin 512) h))
            (Ideal.ofBits .f32 0x00000000#32) * x2 (ix2 h l))
        + x3 (ix1 l) := by
  have e18 : val_main_v18 (F := Ideal) x0 x1 x2 (ix3 bi j l)
      = ∑ h : Fin 1024, Scalar.select (val_main_v15 (F := Ideal) x1 (ix2 bi j))
            (x0 (ix3 bi (⟨(val_main_v8 (F := Ideal) x1 (ix2 bi j)).toNat, ord_lt x1 (ix2 bi j)⟩ : Fin 512) h))
            (Ideal.ofBits .f32 0x00000000#32) * x2 (ix2 h l) := by
    refine (val_main_v18_apply x0 x1 x2 (ix3 bi j l)).trans (Finset.sum_congr rfl fun h _ => ?_)
    have el : lidx_main_v18 (ix3 bi j l) h = ix3 bi j h :=
      funext fun a => Fin.ext (by match a with | ⟨0, _⟩ => rfl | ⟨1, _⟩ => rfl | ⟨2, _⟩ => rfl)
    have er : ridx_main_v18 (ix3 bi j l) h = ix2 h l :=
      funext fun a => Fin.ext (by match a with | ⟨0, _⟩ => rfl | ⟨1, _⟩ => rfl)
    rw [el, er, rows_apply]
  have e20 : val_main_v20 (F := Ideal) x3 (ix3 bi j l) = x3 (ix1 l) := by
    rw [val_main_v20_apply, val_main_v19_apply]
    exact congrArg x3 (funext fun a => Fin.ext (by match a with | ⟨0, _⟩ => rfl))
  rw [val_main_v21_apply, e18, e20]
  rfl

/-- A row's maximum from −∞. -/
theorem max_apply (bi : Fin 64) (j : Fin 512) :
    val_main_v22 (F := Ideal) x0 x1 x2 x3 (ix2 bi j)
      = Finset.univ.fold max Spec.negInf (fun k : Fin 9 => val_main_v21 (F := Ideal) x0 x1 x2 x3 (ix3 bi j k)) := by
  have key : ∀ z : (⟨S64x512x9, .f32⟩ : BufTy).Contents (Elt Ideal),
      Host.reduce (FloatOps.maximumf (F := Ideal) (φ := .f32)) z (val_main_cst_2 (F := Ideal)) reducesTo_S64x512x9_S64x512_d2 h_S_ (ix2 bi j)
        = Finset.univ.fold max Spec.negInf (fun k : Fin 9 => z (ix3 bi j k)) := by
    intro z
    refine (Host.reduce_eq_fold_single (FloatOps.maximumf (F := Ideal) (φ := .f32)) z _ reducesTo_S64x512x9_S64x512_d2 (by decide) h_S_ (ix2 bi j)).trans ?_
    refine congrArg (Finset.univ.fold max Spec.negInf) (funext fun k => ?_)
    exact congrArg z (funext fun a => Fin.ext (by match a with | ⟨0, _⟩ => rfl | ⟨1, _⟩ => rfl | ⟨2, _⟩ => rfl))
  exact key _

/-- The result at (bi, j, l): the softmax of row (bi, j)'s logits at label l. -/
theorem softmax_apply (bi : Fin 64) (j : Fin 512) (l : Fin 9) :
    val_main_v32 (F := Ideal) x0 x1 x2 x3 (ix3 bi j l)
      = Spec.softmaxRow (fun k => val_main_v21 (F := Ideal) x0 x1 x2 x3 (ix3 bi j k)) l := by
  have hM : ∀ k : Fin 9, val_main_v26 (F := Ideal) x0 x1 x2 x3 (ix3 bi j k)
      = Spec.rowMax (fun k => val_main_v21 (F := Ideal) x0 x1 x2 x3 (ix3 bi j k)) := by
    intro k
    have e : idx_main_v25 (idx_main_v26 (ix3 bi j k)) = ix2 bi j :=
      funext fun a => Fin.ext (by match a with | ⟨0, _⟩ => rfl | ⟨1, _⟩ => rfl)
    rw [val_main_v26_apply, val_main_v25_apply, e, val_main_v24_apply, val_main_v23_apply, val_main_cst_3_apply, max_apply,
      Ideal.maximumf_def, Ideal.ofBits_def]
    unfold Spec.rowMax
    rfl
  have hE : ∀ k : Fin 9, val_main_v28 (F := Ideal) x0 x1 x2 x3 (ix3 bi j k)
      = Ideal.exp (val_main_v21 (F := Ideal) x0 x1 x2 x3 (ix3 bi j k)
          - Spec.rowMax (fun k => val_main_v21 (F := Ideal) x0 x1 x2 x3 (ix3 bi j k))) := by
    intro k
    rw [val_main_v28_apply, val_main_v27_apply, hM k, Ideal.hostUnary_exp_def, Ideal.subf_def]
  have e30 : idx_main_v30 (idx_main_v31 (ix3 bi j l)) = ix2 bi j :=
    funext fun a => Fin.ext (by match a with | ⟨0, _⟩ => rfl | ⟨1, _⟩ => rfl)
  have hS : val_main_v31 (F := Ideal) x0 x1 x2 x3 (ix3 bi j l)
      = ∑ k : Fin 9, Ideal.exp (val_main_v21 (F := Ideal) x0 x1 x2 x3 (ix3 bi j k)
          - Spec.rowMax (fun k => val_main_v21 (F := Ideal) x0 x1 x2 x3 (ix3 bi j k))) := by
    rw [val_main_v31_apply, val_main_v30_apply, e30, val_main_v29_apply, val_main_cst_4_apply]
    refine (congrArg (· + _) Ideal.ofBits_zero_f32).trans ((zero_add _).trans (Finset.sum_congr rfl fun k _ => ?_))
    have e29 : idx_main_v29 (ix2 bi j) k = ix3 bi j k :=
      funext fun a => Fin.ext (by match a with | ⟨0, _⟩ => rfl | ⟨1, _⟩ => rfl | ⟨2, _⟩ => rfl)
    rw [e29, hE k]
  rw [val_main_v32_apply, hE l, hS, Ideal.hostDivf_def]
  unfold Spec.softmaxRow
  rfl

end Cert.ReferenceIdeal.RefValue

end
-- ==== Proof.Bridge.lean ====
/-
  The two results are one function of the arguments.

  Row j of batch element bi has an order word o and a keep bit. The kernel's logit k of the row is
      (sum over source rows i of [o' is i] * (sum over features h of x[bi, i, h] * w[h, k])) + b[k]
  with o' the order word where the row is kept and −1 elsewhere; the reference's is
      (sum over features h of r[h] * w[h, k]) + b[k]
  with r the activations' row o where the row is kept and the zero row elsewhere. Where the row is kept o' = o is a row
  number below 512, the selection picks the projected row o and both are the projection of the activations' row o.
  Elsewhere −1 is no row number, the selection gives 0, and the reference's sum of 0 * w[h, k] is 0 as well. Both
  programs then take the same softmax of the row.
-/
import proofs.«419048_j10359461118299_3_alg».proof.Proof.KRun
import proofs.«419048_j10359461118299_3_alg».proof.Proof.RefLogits
import Idealize.ShloMosaic.Lib.ValueLayout

noncomputable section

namespace Cert.Bridge

open Idealize.ShloMosaic Idealize.ShloMosaic.ValueIdx
open Cert.ReferenceIdeal.ReadP Cert.ReferenceIdeal.RefValue

/-- A [a, b] array cast to [a, 1, b] reads, at (i, u, j), the array at (i, j). -/
theorem cast_mid {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- The order words the kernel's host stages are the reference's order words where its keep bit is set, −1 elsewhere:
    the two programs compute both from the mask by the same operations. -/
theorem orderMasked_eq {F : FTy → Type} [FloatOps F] (x1 : (⟨Cert.ReferenceIdeal.S64x512, .i32⟩ : BufTy).Contents (Elt F)) :
    Cert.KernelIdeal.KRun.orderMasked (F := F) x1
      = shapeCast Cert.KernelIdeal.S64x1x512
          (select (val_main_v15 (F := F) x1) (val_main_v8 (F := F) x1)
            (broadcastInDim Cert.KernelIdeal.S64x512 ![] Cert.KernelIdeal.Facts₀.bcast_S_S64x512
              (constantI Cert.KernelIdeal.S_ 32 4294967295#32)))
          Cert.KernelIdeal.Facts₀.shapeCasts_S64x512_S64x1x512 := rfl

variable (x0 : (⟨Cert.ReferenceIdeal.S64x512x1024, .f32⟩ : BufTy).Contents (Elt Ideal)) (x1 : (⟨Cert.ReferenceIdeal.S64x512, .i32⟩ : BufTy).Contents (Elt Ideal)) (x2 : (⟨Cert.ReferenceIdeal.S1024x9, .f32⟩ : BufTy).Contents (Elt Ideal)) (x3 : (⟨Cert.ReferenceIdeal.S9, .f32⟩ : BufTy).Contents (Elt Ideal))

/-- The staged order word of row (bi, j). -/
theorem orderMasked_apply (bi : Fin 64) (j : Fin 512) :
    Cert.KernelIdeal.KRun.orderMasked (F := Ideal) x1 (ix3 bi (0 : Fin 1) j)
      = Scalar.select (val_main_v15 (F := Ideal) x1 (ix2 bi j)) (val_main_v8 (F := Ideal) x1 (ix2 bi j)) 4294967295#32 := by
  rw [orderMasked_eq, cast_mid]
  rfl

/-- −1 is no row number. -/
theorem neg_one_toNat : ¬ (4294967295#32 : BitVec 32).toNat < 512 := by decide

/-- The two rows of logits agree. -/
theorem logits_eq (bi : Fin 64) (j : Fin 512) (k : Fin 9) :
    (∑ i : Fin 512, Cert.Spec.hot (Cert.KernelIdeal.KRun.orderMasked (F := Ideal) x1 (ix3 bi (0 : Fin 1) j)) i
        * ∑ h : Fin 1024, x0 (ix3 bi i h) * x2 (ix2 h k)) + x3 (ix1 k)
      = val_main_v21 (F := Ideal) x0 x1 x2 x3 (ix3 bi j k) := by
  rw [logits_apply, orderMasked_apply, Cert.Spec.hot_sum]
  refine congrArg (· + x3 (ix1 k)) ?_
  by_cases hk : val_main_v15 (F := Ideal) x1 (ix2 bi j) = 1#1
  · rw [hk]
    simp only [select_one]
    rw [dif_pos (ord_lt x1 (ix2 bi j))]
  · rw [eq_zero_of_ne_one hk]
    simp only [select_zero]
    rw [dif_neg neg_one_toNat]
    refine (Finset.sum_eq_zero fun h _ => ?_).symm
    rw [Ideal.ofBits_zero_f32, zero_mul]

/-- The kernel program's result and the reference's are one array. -/
theorem result_eq :
    transpose Cert.KernelIdeal.S64x512x9 [0, 2, 1]
        (Cert.KernelIdeal.KBlocks.arrOut (F := Ideal) (Cert.KernelIdeal.KRun.orderMasked (F := Ideal) x1) x0 x2 x3)
        Cert.KernelIdeal.Facts₀.transposes_S64x9x512_S64x512x9_0_2_1
      = val_main_v32 (F := Ideal) x0 x1 x2 x3 := by
  funext i
  obtain ⟨bi, j, l, rfl⟩ : ∃ (bi : Fin 64) (j : Fin 512) (l : Fin 9), i = ix3 bi j l := ⟨i 0, i 1, i 2, eq_ix3 i⟩
  rw [transpose_ix3_021_apply, softmax_apply]
  show Cert.KernelIdeal.KPayload.tail (Cert.KernelIdeal.KPayload.logits (F := Ideal) x2 x3
      (fun u => Cert.KernelIdeal.KRun.orderMasked (F := Ideal) x1 (ix3 bi (0 : Fin 1) (⟨(u 2).val, (u 2).isLt⟩ : Fin 512)))
      (fun u => x0 (ix3 bi (⟨(u 1).val, (u 1).isLt⟩ : Fin 512) (⟨(u 2).val, (u 2).isLt⟩ : Fin 1024))))
      (ix3 (0 : Fin 1) l j) = _
  rw [Cert.KernelIdeal.KPayload.pay_apply]
  refine congrArg (fun z => Cert.Spec.softmaxRow z l) (funext fun k => ?_)
  exact logits_eq x0 x1 x2 x3 bi j k

end Cert.Bridge

end
-- ==== Proof.lean ====
/-
  The compaction classifier: the kernel program against its reference, over the extended reals.

  Both programs sort each row's keys (1 − mask) · 512 + column, carrying the column numbers, and count the row's ones.
  The reference gathers the activations' rows in that order, zeroes the rows past the count, multiplies by the weights,
  adds the bias and takes the softmax of every row of nine logits. The kernel multiplies every activations' row by the
  weights first and then selects the projected rows with a 0/1 matrix built from the order words (−1, which matches no
  column, on the rows past the count); it adds the bias, takes the same softmax, and stores the result with labels and
  rows exchanged, which the host exchanges back. A 0/1 row summed against the projected rows picks the one projected row
  its order word names, or nothing: the two logits are the same sum, and so are the two results.

  The frames of the two kernel programs are the generated ones; the reference's is its run with the result dropped;
  nothing was rewritten by the idealization, so there is nothing to preserve.
-/
import proofs.«419048_j10359461118299_3_alg».proof.Defs
import proofs.«419048_j10359461118299_3_alg».proof.Proof.Gen.Kernel
import proofs.«419048_j10359461118299_3_alg».proof.Proof.Gen.Kernel.Skeleton
import proofs.«419048_j10359461118299_3_alg».proof.Proof.Gen.Kernel.Launch
import proofs.«419048_j10359461118299_3_alg».proof.Proof.Gen.Kernel.Points
import proofs.«419048_j10359461118299_3_alg».proof.Proof.Gen.Kernel.Frame
import proofs.«419048_j10359461118299_3_alg».proof.Proof.Gen.KernelIdeal
import proofs.«419048_j10359461118299_3_alg».proof.Proof.Gen.KernelIdeal.Skeleton
import proofs.«419048_j10359461118299_3_alg».proof.Proof.Gen.KernelIdeal.Launch
import proofs.«419048_j10359461118299_3_alg».proof.Proof.Gen.KernelIdeal.Points
import proofs.«419048_j10359461118299_3_alg».proof.Proof.Gen.KernelIdeal.Frame
import proofs.«419048_j10359461118299_3_alg».proof.Proof.Gen.ReferenceIdeal
import proofs.«419048_j10359461118299_3_alg».proof.Proof.Gen.Pre_finite_inputs
import proofs.«419048_j10359461118299_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end at the reference's softmax of the launch contents. -/
theorem algebraic : Cert.algebraic_KernelIdeal_ReferenceIdeal := by
  intro m ρ m' ρ' _ hagree
  refine ⟨fun c => Cert.ReferenceIdeal.ReadP.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.KRun.run (F := Ideal) m ρ)
    exact Cert.Bridge.result_eq _ _ _ _
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v32_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
